-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S25x400x10000 : Shape := ⟨3, ![25, 400, 10000]⟩
abbrev S1x128 : Shape := ⟨2, ![1, 128]⟩
abbrev S25x400x128 : Shape := ⟨3, ![25, 400, 128]⟩
abbrev S1x400x10000 : Shape := ⟨3, ![1, 400, 10000]⟩
abbrev S1x400x128 : Shape := ⟨3, ![1, 400, 128]⟩
abbrev S400x10000 : Shape := ⟨2, ![400, 10000]⟩
abbrev S400x128 : Shape := ⟨2, ![400, 128]⟩

abbrev nBuf : Space → Nat
  | .hbm => 11
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S25x400x10000, .f32⟩
  | .hbm, ⟨7, _⟩ => ⟨S1x128, .f32⟩
  | .hbm, ⟨8, _⟩ => ⟨S1x128, .f32⟩
  | .hbm, ⟨9, _⟩ => ⟨S25x400x128, .f32⟩
  | .hbm, ⟨10, _⟩ => ⟨S10000x128, .f32⟩
  | .local _ .vmem, ⟨0, _⟩ => ⟨S1x400x10000, .f32⟩
  | .local _ .vmem, ⟨1, _⟩ => ⟨S1x400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S1x400x128, .f32⟩
  | .local _ .vmem, ⟨8, _⟩ => ⟨S1x400x128, .f32⟩
  | .local _ .vmem, ⟨9, _⟩ => ⟨S10000x128, .bf16⟩
  | .local _ .vmem, ⟨10, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_4 : BitVec 32 := 0#32
  let v8 : BitVec 1 := Scalar.cmpi .eq arg0 c0_i32_4
  let v9 : BitVec 32 := Scalar.extui v8
  let c0_i32_5 : BitVec 32 := 0#32
  let v10 : BitVec 1 := Scalar.cmpi .ne v9 c0_i32_5
  v10

def k0_off1 (i : grid0.Coords) : Fin 2 → Nat :=
  let arg1 : BitVec 32 := BitVec.ofNat 32 (i 1).val
  let c400_i32 : BitVec 32 := 400#32
  let v27 : BitVec 32 := Scalar.muli arg1 c400_i32
  let v28 : Index := Scalar.indexCast v27
  let c0_15 : Index := 0#32
  ![v28.toNat, 0]
def k0_cond3 (i : grid0.Coords) : BitVec 1 :=
  let arg0 : BitVec 32 := BitVec.ofNat 32 (i 0).val
  let c1_i32 : BitVec 32 := 1#32
  let v11 : BitVec 1 := Scalar.cmpi .eq arg0 c1_i32
  let v12 : BitVec 32 := Scalar.extui v11
  let c0_i32_6 : BitVec 32 := 0#32
  let v13 : BitVec 1 := Scalar.cmpi .ne v12 c0_i32_6
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S1x400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S10000x10000_S25x400x10000 : S10000x10000.ShapeCasts S25x400x10000
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S1x400x128_S1x400x128_0_0_0 : ∀ a, (![0, 0, 0] : Fin 3 → Nat) a + S1x400x128.size a ≤ S1x400x128.size a
  h_S1x400x128 : 0 < S1x400x128.numel
  shapeCasts_S1x400x128_S400x128 : S1x400x128.ShapeCasts S400x128
  shapeCasts_S400x128_S1x400x128 : S400x128.ShapeCasts S1x400x128
  shapeCasts_S25x400x128_S10000x128 : S25x400x128.ShapeCasts S10000x128
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  k0_off1_inb : ∀ i : grid0.Coords, ∀ (k0_h2 : k0_cond2 i = 1#1), ∀ a, (k0_off1 i) a + S400x128.size a ≤ S10000x128.size a
  k0_off1_packedbf16 : ∀ i : grid0.Coords, ∀ (k0_h2 : k0_cond2 i = 1#1), (Rect.unit (s := S10000x128) (k0_off1 i) S400x128.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x10000.size a ≤ S25x400x10000.size a
  hwx0_0 : ∀ i : grid0.Coords, EltTy.bits .f32 = 32 ∨ (Rect.block (s := S25x400x10000) S1x400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x400x128.size a ≤ S25x400x128.size a
  hwx0_6 : ∀ i : grid0.Coords, EltTy.bits .f32 = 32 ∨ (Rect.block (s := S25x400x128) S1x400x128.size (cc0_transform_6 i) (hinb0_6 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_v0) S1x400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S128x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S128x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.BitsSide.Runs.lean ====
/-
  The kernel body run once per control case on whole staging buffers: at the grid's first point it forms X · W1ᵀ into
  the first scratch, then (as at every point of phase 0) stores rows [400·step, 400·step + 400) of
  relu(A_blk · XW + b1) · W2ᵀ into the second scratch and leaves the output buffer untouched; at a point of phase 1
  it stores relu(A_blk · G + b2) over the whole output buffer, G the second scratch's contents, and leaves both
  scratches as they were.
-/
import proofs.«152332_g37426345017912_cont_8to1_b_1199_18_alg».proof.Proof.Gen.Kernel.Launch
import proofs.«152332_g37426345017912_cont_8to1_b_1199_18_alg».proof.Proof.Gen.Kernel.Skeleton
import proofs.«152332_g37426345017912_cont_8to1_b_1199_18_alg».proof.Proof.Gen.Kernel.Points
import proofs.«152332_g37426345017912_cont_8to1_b_1199_18_alg».proof.Proof.Gen.Kernel.Frame
import Idealize.ShloMosaic.Lib.Pipeline.FrameBody
import Idealize.ShloMosaic.Lib.Pipeline.FrameSuffix
import Idealize.ShloMosaic.Lib.WritesUnit
import Idealize.ShloMosaic.Lib.Pipeline.Value
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body's three conditionals over the grid point i = (phase, step): the first holds at the first point only,
    the second through phase 0, the third through phase 1. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev condP0 (i : grid0.Coords) : Prop := k0_cond2 i = 1#1
abbrev condP1 (i : grid0.Coords) : Prop := k0_cond3 i = 1#1

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 4000000 in
theorem runFirst (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .bf16) (harg9 : arg9.IsWhole) (arg10 : Memref sig .tc .vmem S10000x128 .bf16) (harg10 : arg10.IsWhole) (hc0 : condFirst i) (hc1 : condP0 i) (hc2 : ¬condP1 i)
    (x0 : Vec F S1x400x10000 .f32) (x1 : Vec F S10000x128 .f32) (x2 : Vec F S128x128 .f32) (x3 : Vec F S1x128 .f32) (x4 : Vec F S128x128 .f32) (x5 : Vec F S1x128 .f32) (d6 : Vec F S1x400x128 .f32) (xs1 : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare (k0_pay1 x1 x2) ∗ (arg10.view.loc (c : Thread nD τ) ↦[arg10.view.set]{fullShare} arg10.view.writes (Elt F) (harg10.unread xs1) [(⟨Rect.unit (s := S10000x128) (k0_off1 i) S400x128.size (k0_off1_inb i hc1), k0_pay3 x0 (k0_pay1 x1 x2) x3 x4⟩ : View.Piece (Elt F) S10000x128 .bf16)])) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
  sl_exec (disch := first | exact hc0 | exact hc1 | exact hc2)
  sl_step
  sl_unfold_words
  simp only [View.readAt_eq_ld, harg2.read_unread, harg3.read_unread, harg4.read_unread, harg5.read_unread, harg6.read_unread, harg7.read_unread, harg9.read_unread, harg10.read_unread, View.ld_unit_zero (S := S1x400x10000) hz3, View.ld_unit_zero (S := S10000x128) hz2, View.ld_unit_zero (S := S128x128) hz2, View.ld_unit_zero (S := S1x128) hz2, View.readCov_unit_zero (S := S10000x128) _ hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; swap; · iexact HS0
    ipureintro
    rw [View.read_writes_eq_canon _ _ _ (fun y => ⟨_, List.mem_singleton_self _, View.mem_set_unit_zero hz2 inb_S10000x128_S10000x128_0_0 y⟩), View.canon_unit_zero hz2]
  iexact HS1

set_option maxHeartbeats 4000000 in
theorem runP0 (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .bf16) (harg9 : arg9.IsWhole) (arg10 : Memref sig .tc .vmem S10000x128 .bf16) (harg10 : arg10.IsWhole) (hc0 : ¬condFirst i) (hc1 : condP0 i) (hc2 : ¬condP1 i)
    (x0 : Vec F S1x400x10000 .f32) (x1 : Vec F S10000x128 .f32) (x2 : Vec F S128x128 .f32) (x3 : Vec F S1x128 .f32) (x4 : Vec F S128x128 .f32) (x5 : Vec F S1x128 .f32) (d6 : Vec F S1x400x128 .f32) (xs0 xs1 : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare xs0 ∗ (arg10.view.loc (c : Thread nD τ) ↦[arg10.view.set]{fullShare} arg10.view.writes (Elt F) (harg10.unread xs1) [(⟨Rect.unit (s := S10000x128) (k0_off1 i) S400x128.size (k0_off1_inb i hc1), k0_pay3 x0 xs0 x3 x4⟩ : View.Piece (Elt F) S10000x128 .bf16)])) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1 | exact hc2)
  sl_step
  simp only [View.readAt_eq_ld, harg2.read_unread, harg3.read_unread, harg4.read_unread, harg5.read_unread, harg6.read_unread, harg7.read_unread, harg9.read_unread, harg10.read_unread, View.ld_unit_zero (S := S1x400x10000) hz3, View.ld_unit_zero (S := S10000x128) hz2, View.ld_unit_zero (S := S128x128) hz2, View.ld_unit_zero (S := S1x128) hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  iexact HS1

set_option maxHeartbeats 4000000 in
theorem runP1 (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .bf16) (harg9 : arg9.IsWhole) (arg10 : Memref sig .tc .vmem S10000x128 .bf16) (harg10 : arg10.IsWhole) (hc0 : ¬condFirst i) (hc1 : ¬condP0 i) (hc2 : condP1 i)
    (x0 : Vec F S1x400x10000 .f32) (x1 : Vec F S10000x128 .f32) (x2 : Vec F S128x128 .f32) (x3 : Vec F S1x128 .f32) (x4 : Vec F S128x128 .f32) (x5 : Vec F S1x128 .f32) (xs0 xs1 : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 x0 xs1 x5) ∗ owns (c : Thread nD τ) arg9 fullShare xs0 ∗ owns (c : Thread nD τ) arg10 fullShare xs1) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  simp only [View.readAt_eq_ld, harg2.read_unread, harg3.read_unread, harg4.read_unread, harg5.read_unread, harg6.read_unread, harg7.read_unread, harg9.read_unread, harg10.read_unread, View.ld_unit_zero (S := S1x400x10000) hz3, View.ld_unit_zero (S := S10000x128) hz2, View.ld_unit_zero (S := S128x128) hz2, View.ld_unit_zero (S := S1x128) hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_eq_canon _ _ _ (fun y => ⟨_, List.mem_singleton_self _, View.mem_set_unit_zero hz3 inb_S1x400x128_S1x400x128_0_0_0 y⟩), View.canon_unit_zero hz3]
  isplitl [HS0]
  · iexists _; isplitr; · ipureintro; exact harg9.read_unread _
    iexact HS0
  iexists _; isplitr; · ipureintro; exact harg10.read_unread _
  iexact HS1

end Cert.Kernel.Hand

end
-- ==== Proof.BitsSide.Body.lean ====
/-
  The pipeline's proof data and the body obligation, for any float instance. Between grid points the first scratch
  holds X · W1ᵀ (formed at the first point) and the second scratch holds, on its rows below 400·(points done), the
  slabs relu(A_blk · XW + b1) · W2ᵀ stored so far — the rows above are not described; from the end of phase 0 on it
  is the whole matrix G. The output window is idle through phase 0 (its buffer handed back as found, never written
  back) and in phase 1 each point stores relu(A_blk · G + b2) over the whole buffer, which is then written back.
-/
import proofs.«152332_g37426345017912_cont_8to1_b_1199_18_alg».proof.Proof.BitsSide.Runs
import Idealize.ShloMosaic.Lib.ValueIdx
import Idealize.ShloMosaic.Lib.Pipeline.FrameBody
import Idealize.ShloMosaic.Lib.Pipeline.FrameSuffix
import Idealize.ShloMosaic.Lib.WritesUnit
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The schedule, decided over the fifty grid points -/

theorem hcondFirst : ∀ t : Fin cfg0.N, condFirst (grid0.coords t) ↔ t.val = 0 :=
  (by decide +kernel : ∀ t : Fin grid0.N, condFirst (grid0.coords t) ↔ t.val = 0)
theorem hcondP0 : ∀ t : Fin cfg0.N, condP0 (grid0.coords t) ↔ t.val < 25 :=
  (by decide +kernel : ∀ t : Fin grid0.N, condP0 (grid0.coords t) ↔ t.val < 25)
theorem hcondP1 : ∀ t : Fin cfg0.N, condP1 (grid0.coords t) ↔ 25 ≤ t.val :=
  (by decide +kernel : ∀ t : Fin grid0.N, condP1 (grid0.coords t) ↔ 25 ≤ t.val)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- The output window is idle exactly through phase 0, -/
theorem idle6_of : ∀ t : Fin cfg0.N, t.val < 25 → cfg0.idle 6 (grid0.coords t) = true :=
  (by decide +kernel : ∀ t : Fin grid0.N, t.val < 25 → cfg0.idle 6 (grid0.coords t) = true)
theorem live6_of : ∀ t : Fin cfg0.N, 25 ≤ t.val → cfg0.idle 6 (grid0.coords t) = false :=
  (by decide +kernel : ∀ t : Fin grid0.N, 25 ≤ t.val → cfg0.idle 6 (grid0.coords t) = false)
/-- and written back exactly at the points of phase 1 (its block index moves after each of them, or the grid ends). -/
theorem flush6_iff : ∀ t : Fin cfg0.N, (cfg0.win 6).flush t = true ↔ 25 ≤ t.val :=
  (by decide +kernel : ∀ t : Fin grid0.N, win0_6.flush t = true ↔ 25 ≤ t.val)
/-- The slab a phase-0 point stores starts at row 400·step. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## The staging and scratch buffers at a point -/

abbrev ms0_0 (t : Fin cfg0.N) : Memref sig .tc .vmem S1x400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x400x128 .f32 := win0_6.stage (cfg0.slots t 6)
abbrev hs0_6 (t : Fin cfg0.N) : (ms0_6 t).IsWhole := hstage0_6 ((cfg0.slots t 6).cast nbuf0_6)
abbrev scM0_0 : Memref sig .tc .vmem S10000x128 .bf16 := Memref.whole cc0_scratch0
abbrev scM0_1 : Memref sig .tc .vmem S10000x128 .bf16 := Memref.whole cc0_scratch1

/-- What the launch hands the region: both scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The values the run leaves, as functions of the argument blocks -/

theorem N50 : cfg0.N = 50 := N_0
/-- The grid's first point. -/
abbrev t0 : Fin cfg0.N := ⟨0, by rw [N50]; decide⟩

/-- X · W1ᵀ as the first point forms it (X and W1 are resident: the same block at every point). -/
def xwv (c : Dev nD) : Vec F S10000x128 .bf16 := k0_pay1 (iblk m c 1 t0) (iblk m c 2 t0)

/-- The slab of 400 rows point t of phase 0 stores: relu(A_t · XW + b1) · W2ᵀ. -/
def slab (c : Dev nD) (t : Fin cfg0.N) : Vec F S400x128 .bf16 :=
  k0_pay3 (iblk m c 0 t) (xwv m c) (iblk m c 3 t) (iblk m c 4 t)

/-- The point that stores row r of the second scratch, -/
def slabPt (y : S10000x128.Idx) : Fin cfg0.N :=
  ⟨(y 0).val / 400, by have h : (y 0).val < 10000 := (y 0).isLt; rw [N50]; omega⟩
/-- and the row's place within that slab. -/
def slabIx (y : S10000x128.Idx) : S400x128.Idx :=
  ix2 (⟨(y 0).val % 400, Nat.mod_lt _ (by decide)⟩ : Fin 400) (⟨(y 1).val, (y 1).isLt⟩ : Fin 128)

/-- G: the second scratch once phase 0 is over, slab by slab. -/
def gfull (c : Dev nD) : Vec F S10000x128 .bf16 := fun y => slab m c (slabPt y) (slabIx y)

/-- The output block point t of phase 1 stores: relu(A_t · G + b2). -/
def outblk (c : Dev nD) (t : Fin cfg0.N) : Vec F S1x400x128 .f32 :=
  k0_pay4 (iblk m c 0 t) (gfull m c) (iblk m c 5 t)

/-! ## The invariant between points -/

def PhiS (c : Dev nD) : (n : ℕ) → n ≤ cfg0.N → sProp 𝕄
  | 0, _ => Pipeline.ΦA spec0 c
  | n + 1, _ => iprop(iprop(owns (c : Thread nD τ) scM0_0 fullShare (xwv m c)
      ∗ (∃ d : Vec F S10000x128 .bf16, ⌜∀ y : S10000x128.Idx, (y 0).val < 400 * (n + 1) → d y = gfull m c y⌝ ∗ owns (c : Thread nD τ) scM0_1 fullShare d))
      ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) scM0_0 fullShare (xwv m c)
      ∗ (∃ d : Vec F S10000x128 .bf16, ⌜∀ y : S10000x128.Idx, (y 0).val < 400 * (n + 1) → d y = gfull m c y⌝ ∗ owns (c : Thread nD τ) scM0_1 fullShare d))
      ∗ (∃ r, prngReg c r)) := rfl

theorem PhiS_pos (c : Dev nD) (n : ℕ) (h : n ≤ cfg0.N) (hz : n ≠ 0) :
    PhiS m c n h = iprop(iprop(owns (c : Thread nD τ) scM0_0 fullShare (xwv m c)
      ∗ (∃ d : Vec F S10000x128 .bf16, ⌜∀ y : S10000x128.Idx, (y 0).val < 400 * n → d y = gfull m c y⌝ ∗ owns (c : Thread nD τ) scM0_1 fullShare d))
      ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outblk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outblk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The output's buffer holds, when the body runs, whatever it was handed: through phase 0 nothing stores into it and
    nothing writes it back, and in phase 1 every point follows a write-back (or the idle run). -/
theorem before0_6 (c : Dev nD) : ∀ (n : ℕ) (hn : n < cfg0.N) (d), (dats m 0 c).before 6 ⟨n, hn⟩ d = d
  | 0, hn, d => (dats m 0 c).before_out_reset 6 rfl ⟨0, hn⟩ (.inl rfl) d
  | n + 1, hn, d => by
    by_cases hfl : (cfg0.win 6).flush ⟨n, Nat.lt_of_succ_lt hn⟩ = true
    · exact (dats m 0 c).before_out_reset 6 rfl ⟨n + 1, hn⟩ (.inr ⟨Nat.succ_ne_zero n, hfl⟩) d
    · have hlt : n < 25 := by
        by_contra h
        exact hfl ((flush6_iff ⟨n, Nat.lt_of_succ_lt hn⟩).mpr (by dsimp only; omega))
      rw [(dats m 0 c).before_of_pos 6 ⟨n + 1, hn⟩ (Nat.succ_ne_zero n) ((cfg0.win 6).fetch_out rfl _)]
      rw [if_neg (by simpa using hfl)]
      unfold Dat.left
      simp only [Nat.add_sub_cancel]
      have hi : idle0 6 (grid0.coords ⟨n, Nat.lt_of_succ_lt hn⟩) = true := idle6_of ⟨n, Nat.lt_of_succ_lt hn⟩ hlt
      rw [hi]
      exact before0_6 c n (Nat.lt_of_succ_lt hn) d

theorem before6 (c : Dev nD) (t : Fin cfg0.N) (d) : (dats m 0 c).before 6 t d = d := before0_6 m c t.val t.isLt d

/-! ## The second scratch after a phase-0 point -/

/-- After point t of phase 0 has stored its slab over contents that agree with G below row 400·t, the second scratch
    agrees with G below row 400·(t + 1): a row below 400·t is outside the stored rectangle and reads as before; a row in
    [400·t, 400·t + 400) reads the slab at its place, which is G there. -/
theorem slab_step (c : Dev nD) (t : Fin cfg0.N) (hP : t.val < 25) (d xs0 : Vec F S10000x128 .bf16) (hxs0 : xs0 = xwv m c)
    (hd : ∀ y : S10000x128.Idx, (y 0).val < 400 * t.val → d y = gfull m c y) (y : S10000x128.Idx) (hy : (y 0).val < 400 * (t.val + 1)) :
    scM0_1.view.read (Elt F) (scM0_1.view.writes (Elt F) ((Memref.isWhole_whole cc0_scratch1).unread d) [(⟨Rect.unit (s := S10000x128) (k0_off1 (grid0.coords t)) S400x128.size (k0_off1_inb (grid0.coords t) ((hcondP0 t).mpr hP)), k0_pay3 (iblk m c 0 t) xs0 (iblk m c 3 t) (iblk m c 4 t)⟩ : View.Piece (Elt F) S10000x128 .bf16)]) y = gfull m c y := by
  by_cases h : (y 0).val < 400 * t.val
  · rw [View.read_writes_cons_rows_of_not_mem scM0_1.view _ _ _ [] y (off1_eq t hP) (W := 400) rfl (Or.inl h), View.writes_nil,
      (Memref.isWhole_whole cc0_scratch1).read_unread]
    exact hd y h
  · have hx0 : (y (0 : Fin 2)).val = 400 * t.val + ((slabIx y) (0 : Fin 2)).val := by
      show (y 0).val = 400 * t.val + (y 0).val % 400
      omega
    have hx1 : (y (1 : Fin 2)).val = ((slabIx y) (1 : Fin 2)).val := rfl
    rw [View.read_writes_cons_rows_of_mem (off := k0_off1 (grid0.coords t)) (size := S400x128.size) (o := 400 * t.val) scM0_1.view _ _ _ [] y (slabIx y) (off1_eq t hP) hx0 hx1]
    have hpt : slabPt y = t := Fin.ext (by show (y 0).val / 400 = t.val; omega)
    unfold gfull slab
    rw [hpt, hxs0]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [live0_0 t], after0_0]
  rw [show (dats m 0 c).leavesExact 1 t = owns (c : Thread nD τ) (ms0_1 t) fullShare ((dats m 0 c).after 1 t) from by
    unfold Dat.leavesExact; rw [live0_1 t], after0_1]
  rw [show (dats m 0 c).leavesExact 2 t = owns (c : Thread nD τ) (ms0_2 t) fullShare ((dats m 0 c).after 2 t) from by
    unfold Dat.leavesExact; rw [live0_2 t], after0_2]
  rw [show (dats m 0 c).leavesExact 3 t = owns (c : Thread nD τ) (ms0_3 t) fullShare ((dats m 0 c).after 3 t) from by
    unfold Dat.leavesExact; rw [live0_3 t], after0_3]
  rw [show (dats m 0 c).leavesExact 4 t = owns (c : Thread nD τ) (ms0_4 t) fullShare ((dats m 0 c).after 4 t) from by
    unfold Dat.leavesExact; rw [live0_4 t], after0_4]
  rw [show (dats m 0 c).leavesExact 5 t = owns (c : Thread nD τ) (ms0_5 t) fullShare ((dats m 0 c).after 5 t) from by
    unfold Dat.leavesExact; rw [live0_5 t], after0_5]
  have hN : t.val < 50 := lt_of_lt_of_eq t.isLt N50
  by_cases hP : t.val < 25
  · rw [Dat.leavesExact_idle (dats m 0 c) 6 t (idle6_of t hP) (by
      cases hfl : (cfg0.win 6).flush t
      · rfl
      · exact absurd ((flush6_iff t).mp hfl) (by omega))]
    simp only [before6]
    by_cases hz : t.val = 0
    · rw [PhiS_castSucc m c t, PhiS_zero m c _ _ hz, PhiA0_eq]
      iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runFirst c (grid0.coords t) _ _ _ _ _ _ _ _ _ _ _ _ _ _ _ _ _ _ ((hcondFirst t).mpr hz) ((hcondP0 t).mpr hP) (fun h => absurd ((hcondP1 t).mp h) (by omega)) (iblk m c 0 t) (iblk m c 1 t) (iblk m c 2 t) (iblk m c 3 t) (iblk m c 4 t) (iblk m c 5 t) d6 ds1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · obtain rfl : t = t0 := Fin.ext hz
            iexact HS0
          · iexists (scM0_1.view.read (Elt F) (scM0_1.view.writes (Elt F) ((Memref.isWhole_whole cc0_scratch1).unread ds1) [(⟨Rect.unit (s := S10000x128) (k0_off1 (grid0.coords t)) S400x128.size (k0_off1_inb (grid0.coords t) ((hcondP0 t).mpr hP)), k0_pay3 (iblk m c 0 t) (k0_pay1 (iblk m c 1 t) (iblk m c 2 t)) (iblk m c 3 t) (iblk m c 4 t)⟩ : View.Piece (Elt F) S10000x128 .bf16)]))
            isplitr
            · ipureintro
              intro y hy
              refine slab_step m c t hP ds1 _ ?_ (fun y h => absurd h (by rw [hz]; omega)) y hy
              obtain rfl : t = t0 := Fin.ext hz
              rfl
            · unfold owns; iexists _; isplitr
              · ipureintro; rfl
              · iexact HS1
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runP0 c (grid0.coords t) _ _ _ _ _ _ _ _ _ _ _ _ _ _ _ _ _ _ (fun h => hz ((hcondFirst t).mp h)) ((hcondP0 t).mpr hP) (fun h => absurd ((hcondP1 t).mp h) (by omega)) (iblk m c 0 t) (iblk m c 1 t) (iblk m c 2 t) (iblk m c 3 t) (iblk m c 4 t) (iblk m c 5 t) d6 (xwv m c) ds1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          · iexists (scM0_1.view.read (Elt F) (scM0_1.view.writes (Elt F) ((Memref.isWhole_whole cc0_scratch1).unread ds1) [(⟨Rect.unit (s := S10000x128) (k0_off1 (grid0.coords t)) S400x128.size (k0_off1_inb (grid0.coords t) ((hcondP0 t).mpr hP)), k0_pay3 (iblk m c 0 t) (xwv m c) (iblk m c 3 t) (iblk m c 4 t)⟩ : View.Piece (Elt F) S10000x128 .bf16)]))
            isplitr
            · ipureintro
              intro y hy
              exact slab_step m c t hP ds1 _ rfl hds1 y hy
            · unfold owns; iexists _; isplitr
              · ipureintro; rfl
              · iexact HS1
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    rw [show (dats m 0 c).leavesExact 6 t = owns (c : Thread nD τ) (ms0_6 t) fullShare ((dats m 0 c).after 6 t) from by
      unfold Dat.leavesExact; rw [live6_of t (by omega)], after0_6]
    rw [PhiS_castSucc m c t, PhiS_pos m c _ _ hz]
    iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : ds1 = gfull m c := funext fun y => hds1 y (by have h : (y 0).val < 10000 := (y 0).isLt; omega)
    iapply (runP1 c (grid0.coords t) _ _ _ _ _ _ _ _ _ _ _ _ _ _ _ _ _ _ (fun h => hz ((hcondFirst t).mp h)) (fun h => hP ((hcondP0 t).mp h)) ((hcondP1 t).mpr (by omega)) (iblk m c 0 t) (iblk m c 1 t) (iblk m c 2 t) (iblk m c 3 t) (iblk m c 4 t) (iblk m c 5 t) (xwv m c) (gfull m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        · iexists (gfull m c); isplitr
          · ipureintro; intro y _; rfl
          · iexact HS1
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation (c : Dev nD) : BodyObligation (dats (F := F) m 0 c) (defs₀ (F := F)) Variants.none () Set.univ := fun t => by
  rw [bigSep_W0, bigSep_W0]
  exact sound_body m c t

/-! ## The launch's ends, the run, the frame -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N50]; decide), PhiA0_eq]
  iintro ⟨⟨HS0, ⟨%d, -, HS1⟩⟩, Hg⟩
  isplitl [HS0 HS1]
  · isplitl [HS0]
    · iexists _; iexact HS0
    · iexists _; iexact HS1
  · iexact Hg

set_option backward.isDefEq.respectTransparency.types false in
/-- Every weakly fair execution of the program terminates without a fault, with each array of the pipeline at what the
    proof data's write-backs leave and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.IdealSide.Runs.lean ====
/-
  The kernel body run once per control case on whole staging buffers: at the grid's first point it forms X · W1ᵀ into
  the first scratch, then (as at every point of phase 0) stores rows [400·step, 400·step + 400) of
  relu(A_blk · XW + b1) · W2ᵀ into the second scratch and leaves the output buffer untouched; at a point of phase 1
  it stores relu(A_blk · G + b2) over the whole output buffer, G the second scratch's contents, and leaves both
  scratches as they were.
-/
import proofs.«152332_g37426345017912_cont_8to1_b_1199_18_alg».proof.Proof.Gen.KernelIdeal.Launch
import proofs.«152332_g37426345017912_cont_8to1_b_1199_18_alg».proof.Proof.Gen.KernelIdeal.Skeleton
import proofs.«152332_g37426345017912_cont_8to1_b_1199_18_alg».proof.Proof.Gen.KernelIdeal.Points
import proofs.«152332_g37426345017912_cont_8to1_b_1199_18_alg».proof.Proof.Gen.KernelIdeal.Frame
import Idealize.ShloMosaic.Lib.Pipeline.FrameBody
import Idealize.ShloMosaic.Lib.Pipeline.FrameSuffix
import Idealize.ShloMosaic.Lib.WritesUnit
import Idealize.ShloMosaic.Lib.Pipeline.Value
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body's three conditionals over the grid point i = (phase, step): the first holds at the first point only,
    the second through phase 0, the third through phase 1. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev condP0 (i : grid0.Coords) : Prop := k0_cond2 i = 1#1
abbrev condP1 (i : grid0.Coords) : Prop := k0_cond3 i = 1#1

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 4000000 in
theorem runFirst (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .bf16) (harg9 : arg9.IsWhole) (arg10 : Memref sig .tc .vmem S10000x128 .bf16) (harg10 : arg10.IsWhole) (hc0 : condFirst i) (hc1 : condP0 i) (hc2 : ¬condP1 i)
    (x0 : Vec F S1x400x10000 .f32) (x1 : Vec F S10000x128 .f32) (x2 : Vec F S128x128 .f32) (x3 : Vec F S1x128 .f32) (x4 : Vec F S128x128 .f32) (x5 : Vec F S1x128 .f32) (d6 : Vec F S1x400x128 .f32) (xs1 : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare (k0_pay1 x1 x2) ∗ (arg10.view.loc (c : Thread nD τ) ↦[arg10.view.set]{fullShare} arg10.view.writes (Elt F) (harg10.unread xs1) [(⟨Rect.unit (s := S10000x128) (k0_off1 i) S400x128.size (k0_off1_inb i hc1), k0_pay3 x0 (k0_pay1 x1 x2) x3 x4⟩ : View.Piece (Elt F) S10000x128 .bf16)])) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
  sl_exec (disch := first | exact hc0 | exact hc1 | exact hc2)
  sl_step
  sl_unfold_words
  simp only [View.readAt_eq_ld, harg2.read_unread, harg3.read_unread, harg4.read_unread, harg5.read_unread, harg6.read_unread, harg7.read_unread, harg9.read_unread, harg10.read_unread, View.ld_unit_zero (S := S1x400x10000) hz3, View.ld_unit_zero (S := S10000x128) hz2, View.ld_unit_zero (S := S128x128) hz2, View.ld_unit_zero (S := S1x128) hz2, View.readCov_unit_zero (S := S10000x128) _ hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; swap; · iexact HS0
    ipureintro
    rw [View.read_writes_eq_canon _ _ _ (fun y => ⟨_, List.mem_singleton_self _, View.mem_set_unit_zero hz2 inb_S10000x128_S10000x128_0_0 y⟩), View.canon_unit_zero hz2]
  iexact HS1

set_option maxHeartbeats 4000000 in
theorem runP0 (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .bf16) (harg9 : arg9.IsWhole) (arg10 : Memref sig .tc .vmem S10000x128 .bf16) (harg10 : arg10.IsWhole) (hc0 : ¬condFirst i) (hc1 : condP0 i) (hc2 : ¬condP1 i)
    (x0 : Vec F S1x400x10000 .f32) (x1 : Vec F S10000x128 .f32) (x2 : Vec F S128x128 .f32) (x3 : Vec F S1x128 .f32) (x4 : Vec F S128x128 .f32) (x5 : Vec F S1x128 .f32) (d6 : Vec F S1x400x128 .f32) (xs0 xs1 : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare xs0 ∗ (arg10.view.loc (c : Thread nD τ) ↦[arg10.view.set]{fullShare} arg10.view.writes (Elt F) (harg10.unread xs1) [(⟨Rect.unit (s := S10000x128) (k0_off1 i) S400x128.size (k0_off1_inb i hc1), k0_pay3 x0 xs0 x3 x4⟩ : View.Piece (Elt F) S10000x128 .bf16)])) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | exact hc0 | exact hc1 | exact hc2)
  sl_step
  simp only [View.readAt_eq_ld, harg2.read_unread, harg3.read_unread, harg4.read_unread, harg5.read_unread, harg6.read_unread, harg7.read_unread, harg9.read_unread, harg10.read_unread, View.ld_unit_zero (S := S1x400x10000) hz3, View.ld_unit_zero (S := S10000x128) hz2, View.ld_unit_zero (S := S128x128) hz2, View.ld_unit_zero (S := S1x128) hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  iexact HS1

set_option maxHeartbeats 4000000 in
theorem runP1 (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .bf16) (harg9 : arg9.IsWhole) (arg10 : Memref sig .tc .vmem S10000x128 .bf16) (harg10 : arg10.IsWhole) (hc0 : ¬condFirst i) (hc1 : ¬condP0 i) (hc2 : condP1 i)
    (x0 : Vec F S1x400x10000 .f32) (x1 : Vec F S10000x128 .f32) (x2 : Vec F S128x128 .f32) (x3 : Vec F S1x128 .f32) (x4 : Vec F S128x128 .f32) (x5 : Vec F S1x128 .f32) (xs0 xs1 : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 x0 xs1 x5) ∗ owns (c : Thread nD τ) arg9 fullShare xs0 ∗ owns (c : Thread nD τ) arg10 fullShare xs1) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  simp only [View.readAt_eq_ld, harg2.read_unread, harg3.read_unread, harg4.read_unread, harg5.read_unread, harg6.read_unread, harg7.read_unread, harg9.read_unread, harg10.read_unread, View.ld_unit_zero (S := S1x400x10000) hz3, View.ld_unit_zero (S := S10000x128) hz2, View.ld_unit_zero (S := S128x128) hz2, View.ld_unit_zero (S := S1x128) hz2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_eq_canon _ _ _ (fun y => ⟨_, List.mem_singleton_self _, View.mem_set_unit_zero hz3 inb_S1x400x128_S1x400x128_0_0_0 y⟩), View.canon_unit_zero hz3]
  isplitl [HS0]
  · iexists _; isplitr; · ipureintro; exact harg9.read_unread _
    iexact HS0
  iexists _; isplitr; · ipureintro; exact harg10.read_unread _
  iexact HS1

end Cert.KernelIdeal.Hand

end
-- ==== Proof.IdealSide.Body.lean ====
/-
  The pipeline's proof data and the body obligation, for any float instance. Between grid points the first scratch
  holds X · W1ᵀ (formed at the first point) and the second scratch holds, on its rows below 400·(points done), the
  slabs relu(A_blk · XW + b1) · W2ᵀ stored so far — the rows above are not described; from the end of phase 0 on it
  is the whole matrix G. The output window is idle through phase 0 (its buffer handed back as found, never written
  back) and in phase 1 each point stores relu(A_blk · G + b2) over the whole buffer, which is then written back.
-/
import proofs.«152332_g37426345017912_cont_8to1_b_1199_18_alg».proof.Proof.IdealSide.Runs
import Idealize.ShloMosaic.Lib.ValueIdx
import Idealize.ShloMosaic.Lib.Pipeline.FrameBody
import Idealize.ShloMosaic.Lib.Pipeline.FrameSuffix
import Idealize.ShloMosaic.Lib.WritesUnit
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The schedule, decided over the fifty grid points -/

theorem hcondFirst : ∀ t : Fin cfg0.N, condFirst (grid0.coords t) ↔ t.val = 0 :=
  (by decide +kernel : ∀ t : Fin grid0.N, condFirst (grid0.coords t) ↔ t.val = 0)
theorem hcondP0 : ∀ t : Fin cfg0.N, condP0 (grid0.coords t) ↔ t.val < 25 :=
  (by decide +kernel : ∀ t : Fin grid0.N, condP0 (grid0.coords t) ↔ t.val < 25)
theorem hcondP1 : ∀ t : Fin cfg0.N, condP1 (grid0.coords t) ↔ 25 ≤ t.val :=
  (by decide +kernel : ∀ t : Fin grid0.N, condP1 (grid0.coords t) ↔ 25 ≤ t.val)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- The output window is idle exactly through phase 0, -/
theorem idle6_of : ∀ t : Fin cfg0.N, t.val < 25 → cfg0.idle 6 (grid0.coords t) = true :=
  (by decide +kernel : ∀ t : Fin grid0.N, t.val < 25 → cfg0.idle 6 (grid0.coords t) = true)
theorem live6_of : ∀ t : Fin cfg0.N, 25 ≤ t.val → cfg0.idle 6 (grid0.coords t) = false :=
  (by decide +kernel : ∀ t : Fin grid0.N, 25 ≤ t.val → cfg0.idle 6 (grid0.coords t) = false)
/-- and written back exactly at the points of phase 1 (its block index moves after each of them, or the grid ends). -/
theorem flush6_iff : ∀ t : Fin cfg0.N, (cfg0.win 6).flush t = true ↔ 25 ≤ t.val :=
  (by decide +kernel : ∀ t : Fin grid0.N, win0_6.flush t = true ↔ 25 ≤ t.val)
/-- The slab a phase-0 point stores starts at row 400·step. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## The staging and scratch buffers at a point -/

abbrev ms0_0 (t : Fin cfg0.N) : Memref sig .tc .vmem S1x400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x400x128 .f32 := win0_6.stage (cfg0.slots t 6)
abbrev hs0_6 (t : Fin cfg0.N) : (ms0_6 t).IsWhole := hstage0_6 ((cfg0.slots t 6).cast nbuf0_6)
abbrev scM0_0 : Memref sig .tc .vmem S10000x128 .bf16 := Memref.whole cc0_scratch0
abbrev scM0_1 : Memref sig .tc .vmem S10000x128 .bf16 := Memref.whole cc0_scratch1

/-- What the launch hands the region: both scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The values the run leaves, as functions of the argument blocks -/

theorem N50 : cfg0.N = 50 := N_0
/-- The grid's first point. -/
abbrev t0 : Fin cfg0.N := ⟨0, by rw [N50]; decide⟩

/-- X · W1ᵀ as the first point forms it (X and W1 are resident: the same block at every point). -/
def xwv (c : Dev nD) : Vec F S10000x128 .bf16 := k0_pay1 (iblk m c 1 t0) (iblk m c 2 t0)

/-- The slab of 400 rows point t of phase 0 stores: relu(A_t · XW + b1) · W2ᵀ. -/
def slab (c : Dev nD) (t : Fin cfg0.N) : Vec F S400x128 .bf16 :=
  k0_pay3 (iblk m c 0 t) (xwv m c) (iblk m c 3 t) (iblk m c 4 t)

/-- The point that stores row r of the second scratch, -/
def slabPt (y : S10000x128.Idx) : Fin cfg0.N :=
  ⟨(y 0).val / 400, by have h : (y 0).val < 10000 := (y 0).isLt; rw [N50]; omega⟩
/-- and the row's place within that slab. -/
def slabIx (y : S10000x128.Idx) : S400x128.Idx :=
  ix2 (⟨(y 0).val % 400, Nat.mod_lt _ (by decide)⟩ : Fin 400) (⟨(y 1).val, (y 1).isLt⟩ : Fin 128)

/-- G: the second scratch once phase 0 is over, slab by slab. -/
def gfull (c : Dev nD) : Vec F S10000x128 .bf16 := fun y => slab m c (slabPt y) (slabIx y)

/-- The output block point t of phase 1 stores: relu(A_t · G + b2). -/
def outblk (c : Dev nD) (t : Fin cfg0.N) : Vec F S1x400x128 .f32 :=
  k0_pay4 (iblk m c 0 t) (gfull m c) (iblk m c 5 t)

/-! ## The invariant between points -/

def PhiS (c : Dev nD) : (n : ℕ) → n ≤ cfg0.N → sProp 𝕄
  | 0, _ => Pipeline.ΦA spec0 c
  | n + 1, _ => iprop(iprop(owns (c : Thread nD τ) scM0_0 fullShare (xwv m c)
      ∗ (∃ d : Vec F S10000x128 .bf16, ⌜∀ y : S10000x128.Idx, (y 0).val < 400 * (n + 1) → d y = gfull m c y⌝ ∗ owns (c : Thread nD τ) scM0_1 fullShare d))
      ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) scM0_0 fullShare (xwv m c)
      ∗ (∃ d : Vec F S10000x128 .bf16, ⌜∀ y : S10000x128.Idx, (y 0).val < 400 * (n + 1) → d y = gfull m c y⌝ ∗ owns (c : Thread nD τ) scM0_1 fullShare d))
      ∗ (∃ r, prngReg c r)) := rfl

theorem PhiS_pos (c : Dev nD) (n : ℕ) (h : n ≤ cfg0.N) (hz : n ≠ 0) :
    PhiS m c n h = iprop(iprop(owns (c : Thread nD τ) scM0_0 fullShare (xwv m c)
      ∗ (∃ d : Vec F S10000x128 .bf16, ⌜∀ y : S10000x128.Idx, (y 0).val < 400 * n → d y = gfull m c y⌝ ∗ owns (c : Thread nD τ) scM0_1 fullShare d))
      ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outblk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outblk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The output's buffer holds, when the body runs, whatever it was handed: through phase 0 nothing stores into it and
    nothing writes it back, and in phase 1 every point follows a write-back (or the idle run). -/
theorem before0_6 (c : Dev nD) : ∀ (n : ℕ) (hn : n < cfg0.N) (d), (dats m 0 c).before 6 ⟨n, hn⟩ d = d
  | 0, hn, d => (dats m 0 c).before_out_reset 6 rfl ⟨0, hn⟩ (.inl rfl) d
  | n + 1, hn, d => by
    by_cases hfl : (cfg0.win 6).flush ⟨n, Nat.lt_of_succ_lt hn⟩ = true
    · exact (dats m 0 c).before_out_reset 6 rfl ⟨n + 1, hn⟩ (.inr ⟨Nat.succ_ne_zero n, hfl⟩) d
    · have hlt : n < 25 := by
        by_contra h
        exact hfl ((flush6_iff ⟨n, Nat.lt_of_succ_lt hn⟩).mpr (by dsimp only; omega))
      rw [(dats m 0 c).before_of_pos 6 ⟨n + 1, hn⟩ (Nat.succ_ne_zero n) ((cfg0.win 6).fetch_out rfl _)]
      rw [if_neg (by simpa using hfl)]
      unfold Dat.left
      simp only [Nat.add_sub_cancel]
      have hi : idle0 6 (grid0.coords ⟨n, Nat.lt_of_succ_lt hn⟩) = true := idle6_of ⟨n, Nat.lt_of_succ_lt hn⟩ hlt
      rw [hi]
      exact before0_6 c n (Nat.lt_of_succ_lt hn) d

theorem before6 (c : Dev nD) (t : Fin cfg0.N) (d) : (dats m 0 c).before 6 t d = d := before0_6 m c t.val t.isLt d

/-! ## The second scratch after a phase-0 point -/

/-- After point t of phase 0 has stored its slab over contents that agree with G below row 400·t, the second scratch
    agrees with G below row 400·(t + 1): a row below 400·t is outside the stored rectangle and reads as before; a row in
    [400·t, 400·t + 400) reads the slab at its place, which is G there. -/
theorem slab_step (c : Dev nD) (t : Fin cfg0.N) (hP : t.val < 25) (d xs0 : Vec F S10000x128 .bf16) (hxs0 : xs0 = xwv m c)
    (hd : ∀ y : S10000x128.Idx, (y 0).val < 400 * t.val → d y = gfull m c y) (y : S10000x128.Idx) (hy : (y 0).val < 400 * (t.val + 1)) :
    scM0_1.view.read (Elt F) (scM0_1.view.writes (Elt F) ((Memref.isWhole_whole cc0_scratch1).unread d) [(⟨Rect.unit (s := S10000x128) (k0_off1 (grid0.coords t)) S400x128.size (k0_off1_inb (grid0.coords t) ((hcondP0 t).mpr hP)), k0_pay3 (iblk m c 0 t) xs0 (iblk m c 3 t) (iblk m c 4 t)⟩ : View.Piece (Elt F) S10000x128 .bf16)]) y = gfull m c y := by
  by_cases h : (y 0).val < 400 * t.val
  · rw [View.read_writes_cons_rows_of_not_mem scM0_1.view _ _ _ [] y (off1_eq t hP) (W := 400) rfl (Or.inl h), View.writes_nil,
      (Memref.isWhole_whole cc0_scratch1).read_unread]
    exact hd y h
  · have hx0 : (y (0 : Fin 2)).val = 400 * t.val + ((slabIx y) (0 : Fin 2)).val := by
      show (y 0).val = 400 * t.val + (y 0).val % 400
      omega
    have hx1 : (y (1 : Fin 2)).val = ((slabIx y) (1 : Fin 2)).val := rfl
    rw [View.read_writes_cons_rows_of_mem (off := k0_off1 (grid0.coords t)) (size := S400x128.size) (o := 400 * t.val) scM0_1.view _ _ _ [] y (slabIx y) (off1_eq t hP) hx0 hx1]
    have hpt : slabPt y = t := Fin.ext (by show (y 0).val / 400 = t.val; omega)
    unfold gfull slab
    rw [hpt, hxs0]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [live0_0 t], after0_0]
  rw [show (dats m 0 c).leavesExact 1 t = owns (c : Thread nD τ) (ms0_1 t) fullShare ((dats m 0 c).after 1 t) from by
    unfold Dat.leavesExact; rw [live0_1 t], after0_1]
  rw [show (dats m 0 c).leavesExact 2 t = owns (c : Thread nD τ) (ms0_2 t) fullShare ((dats m 0 c).after 2 t) from by
    unfold Dat.leavesExact; rw [live0_2 t], after0_2]
  rw [show (dats m 0 c).leavesExact 3 t = owns (c : Thread nD τ) (ms0_3 t) fullShare ((dats m 0 c).after 3 t) from by
    unfold Dat.leavesExact; rw [live0_3 t], after0_3]
  rw [show (dats m 0 c).leavesExact 4 t = owns (c : Thread nD τ) (ms0_4 t) fullShare ((dats m 0 c).after 4 t) from by
    unfold Dat.leavesExact; rw [live0_4 t], after0_4]
  rw [show (dats m 0 c).leavesExact 5 t = owns (c : Thread nD τ) (ms0_5 t) fullShare ((dats m 0 c).after 5 t) from by
    unfold Dat.leavesExact; rw [live0_5 t], after0_5]
  have hN : t.val < 50 := lt_of_lt_of_eq t.isLt N50
  by_cases hP : t.val < 25
  · rw [Dat.leavesExact_idle (dats m 0 c) 6 t (idle6_of t hP) (by
      cases hfl : (cfg0.win 6).flush t
      · rfl
      · exact absurd ((flush6_iff t).mp hfl) (by omega))]
    simp only [before6]
    by_cases hz : t.val = 0
    · rw [PhiS_castSucc m c t, PhiS_zero m c _ _ hz, PhiA0_eq]
      iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runFirst c (grid0.coords t) _ _ _ _ _ _ _ _ _ _ _ _ _ _ _ _ _ _ ((hcondFirst t).mpr hz) ((hcondP0 t).mpr hP) (fun h => absurd ((hcondP1 t).mp h) (by omega)) (iblk m c 0 t) (iblk m c 1 t) (iblk m c 2 t) (iblk m c 3 t) (iblk m c 4 t) (iblk m c 5 t) d6 ds1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · obtain rfl : t = t0 := Fin.ext hz
            iexact HS0
          · iexists (scM0_1.view.read (Elt F) (scM0_1.view.writes (Elt F) ((Memref.isWhole_whole cc0_scratch1).unread ds1) [(⟨Rect.unit (s := S10000x128) (k0_off1 (grid0.coords t)) S400x128.size (k0_off1_inb (grid0.coords t) ((hcondP0 t).mpr hP)), k0_pay3 (iblk m c 0 t) (k0_pay1 (iblk m c 1 t) (iblk m c 2 t)) (iblk m c 3 t) (iblk m c 4 t)⟩ : View.Piece (Elt F) S10000x128 .bf16)]))
            isplitr
            · ipureintro
              intro y hy
              refine slab_step m c t hP ds1 _ ?_ (fun y h => absurd h (by rw [hz]; omega)) y hy
              obtain rfl : t = t0 := Fin.ext hz
              rfl
            · unfold owns; iexists _; isplitr
              · ipureintro; rfl
              · iexact HS1
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runP0 c (grid0.coords t) _ _ _ _ _ _ _ _ _ _ _ _ _ _ _ _ _ _ (fun h => hz ((hcondFirst t).mp h)) ((hcondP0 t).mpr hP) (fun h => absurd ((hcondP1 t).mp h) (by omega)) (iblk m c 0 t) (iblk m c 1 t) (iblk m c 2 t) (iblk m c 3 t) (iblk m c 4 t) (iblk m c 5 t) d6 (xwv m c) ds1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          · iexists (scM0_1.view.read (Elt F) (scM0_1.view.writes (Elt F) ((Memref.isWhole_whole cc0_scratch1).unread ds1) [(⟨Rect.unit (s := S10000x128) (k0_off1 (grid0.coords t)) S400x128.size (k0_off1_inb (grid0.coords t) ((hcondP0 t).mpr hP)), k0_pay3 (iblk m c 0 t) (xwv m c) (iblk m c 3 t) (iblk m c 4 t)⟩ : View.Piece (Elt F) S10000x128 .bf16)]))
            isplitr
            · ipureintro
              intro y hy
              exact slab_step m c t hP ds1 _ rfl hds1 y hy
            · unfold owns; iexists _; isplitr
              · ipureintro; rfl
              · iexact HS1
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    rw [show (dats m 0 c).leavesExact 6 t = owns (c : Thread nD τ) (ms0_6 t) fullShare ((dats m 0 c).after 6 t) from by
      unfold Dat.leavesExact; rw [live6_of t (by omega)], after0_6]
    rw [PhiS_castSucc m c t, PhiS_pos m c _ _ hz]
    iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : ds1 = gfull m c := funext fun y => hds1 y (by have h : (y 0).val < 10000 := (y 0).isLt; omega)
    iapply (runP1 c (grid0.coords t) _ _ _ _ _ _ _ _ _ _ _ _ _ _ _ _ _ _ (fun h => hz ((hcondFirst t).mp h)) (fun h => hP ((hcondP0 t).mp h)) ((hcondP1 t).mpr (by omega)) (iblk m c 0 t) (iblk m c 1 t) (iblk m c 2 t) (iblk m c 3 t) (iblk m c 4 t) (iblk m c 5 t) (xwv m c) (gfull m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        · iexists (gfull m c); isplitr
          · ipureintro; intro y _; rfl
          · iexact HS1
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation (c : Dev nD) : BodyObligation (dats (F := F) m 0 c) (defs₀ (F := F)) Variants.none () Set.univ := fun t => by
  rw [bigSep_W0, bigSep_W0]
  exact sound_body m c t

/-! ## The launch's ends, the run, the frame -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N50]; decide), PhiA0_eq]
  iintro ⟨⟨HS0, ⟨%d, -, HS1⟩⟩, Hg⟩
  isplitl [HS0 HS1]
  · isplitl [HS0]
    · iexists _; iexact HS0
    · iexists _; iexact HS1
  · iexact Hg

set_option backward.isDefEq.respectTransparency.types false in
/-- Every weakly fair execution of the program terminates without a fault, with each array of the pipeline at what the
    proof data's write-backs leave and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.KernelValue.lean ====
/-
  What the kernel's result holds after the run. The output window is written back exactly at the 25 points of
  phase 1, point 25 + g writing block g of the [25, 400, 128] result; the blocks tile it, so the result ends as the
  25 stored blocks side by side, and the host's regrouping into [10000, 128] reads row 400·g + r from block g.
-/
import proofs.«152332_g37426345017912_cont_8to1_b_1199_18_alg».proof.Proof.IdealSide.Body
import Idealize.ShloMosaic.Lib.StableHlo.Run
import Idealize.ShloMosaic.Lib.Pipeline.FrameBody
import Idealize.ShloMosaic.Lib.Pipeline.FrameSuffix
import Idealize.ShloMosaic.Lib.WritesUnit
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The output window's block index at a point of phase 1 is its step. -/
theorem index6 : ∀ t : Fin cfg0.N, 25 ≤ t.val → win0_6.index t (0 : Fin 3) = t.val - 25 ∧ win0_6.index t (1 : Fin 3) = 0 ∧ win0_6.index t (2 : Fin 3) = 0 :=
  (by decide +kernel : ∀ t : Fin grid0.N, 25 ≤ t.val → win0_6.index t (0 : Fin 3) = t.val - 25 ∧ win0_6.index t (1 : Fin 3) = 0 ∧ win0_6.index t (2 : Fin 3) = 0)

/-- The point of phase 1 that writes block g of the result. -/
def ptOf (z : S25x400x128.Idx) : Fin cfg0.N :=
  ⟨25 + (z 0).val, by have h : (z 0).val < 25 := (z 0).isLt; rw [N50]; omega⟩

/-- The result array of the pallas_call after the run: block g is what point 25 + g stored. -/
def out3 (c : Dev nD) : Buf (Elt F) ((c : Thread nD τ).loc main_v3) := fun z =>
  outblk m c (ptOf z) (ix3 (0 : Fin 1) (⟨(z 1).val, (z 1).isLt⟩ : Fin 400) (⟨(z 2).val, (z 2).isLt⟩ : Fin 128))

/-- What a point of phase 1 writes back is its block of that array. -/
theorem flushed6_eq (c : Dev nD) (t : Fin cfg0.N) (hf : (cfg0.win 6).flush t = true) :
    (dats m 0 c).flushed 6 t = ((cfg0.win 6).blk t).view.read (Elt F) (out3 m c) := by
  have h25 : 25 ≤ t.val := (flush6_iff t).mp hf
  obtain ⟨i0, i1, i2⟩ := index6 t h25
  show (cfg0.win 6).cut (grid0.coords t) ((dats m 0 c).after 6 t) = _
  rw [after0_6]
  funext y
  rw [View.read_apply]
  show outblk m c t y = out3 m c _
  unfold out3
  have hy0 : (y 0).val = 0 := by have h : (y 0).val < 1 := (y 0).isLt; omega
  have ept : ptOf (((cfg0.win 6).blk t).view.emb y) = t := Fin.ext (by
    show 25 + (win0_6.index t 0 * 1 + 1 * (y 0).val) = t.val
    rw [i0, hy0]; omega)
  rw [ept]
  congr 1
  funext a
  apply Fin.ext
  match a with
  | ⟨0, _⟩ => show (y 0).val = 0; exact hy0
  | ⟨1, _⟩ => show (y 1).val = win0_6.index t 1 * 400 + 1 * (y 1).val; rw [i1]; omega
  | ⟨2, _⟩ => show (y 2).val = win0_6.index t 2 * 128 + 1 * (y 2).val; rw [i2]; omega

/-- So the result array ends holding the 25 stored blocks: block g is covered by point 25 + g. -/
theorem final6 (c : Dev nD) : (dats m 0 c).arrAt 6 cfg0.N = out3 m c :=
  (dats m 0 c).arrAt_eq_of_cover 6 (out3 m c) (flushed6_eq m c) fun z => by
    have hpt : 25 ≤ (ptOf z).val := by show 25 ≤ 25 + (z 0).val; omega
    obtain ⟨i0, i1, i2⟩ := index6 (ptOf z) hpt
    refine ⟨ptOf z, (flush6_iff (ptOf z)).mpr hpt, ?_⟩
    show z ∈ ((View.whole main_v3).slice (win0_6.rect (ptOf z))).set
    rw [View.set_slice_whole, Rect.mem_set_unit]
    intro a
    have h1 : (z 1 : Nat) < 400 := (z 1).isLt
    have h2 : (z 2 : Nat) < 128 := (z 2).isLt
    match a with
    | ⟨0, _⟩ =>
      show win0_6.index (ptOf z) 0 * 1 ≤ (z 0 : Nat) ∧ (z 0 : Nat) < win0_6.index (ptOf z) 0 * 1 + 1
      rw [i0]; show (25 + (z 0).val - 25) * 1 ≤ (z 0 : Nat) ∧ (z 0 : Nat) < (25 + (z 0).val - 25) * 1 + 1; omega
    | ⟨1, _⟩ =>
      show win0_6.index (ptOf z) 1 * 400 ≤ (z 1 : Nat) ∧ (z 1 : Nat) < win0_6.index (ptOf z) 1 * 400 + 400
      rw [i1]; omega
    | ⟨2, _⟩ =>
      show win0_6.index (ptOf z) 2 * 128 ≤ (z 2 : Nat) ∧ (z 2 : Nat) < win0_6.index (ptOf z) 2 * 128 + 128
      rw [i2]; omega

/-- The program's result: the host's regrouping of that array into [10000, 128]. -/
theorem tail_v4 (c : Dev nD) :
    Pipeline.afterTail₀ cfgs (dats m) 0 (V0 m) [hostOps1] c main_v4
      = shapeCast S10000x128 (out3 m c) shapeCasts_S25x400x128_S10000x128 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3) = out3 m c :=
    (Pipeline.withArrays_arr spec0 launch0.win.arr_inj c _ _ 6).trans (final6 m c)
  rw [e]
  rfl

/-- The run, read: the program's result is the regrouped array of stored blocks, and the six arguments are unchanged. -/
theorem run_named : θ_run defs (onTc (τ := τ) (main (F := F))) ⟨m, fun _ => 0, ρ⟩ (fun r => ∀ c : Dev nD,
      r.2.mem ((c.tc : Thread nD τ).loc main_v4) = shapeCast S10000x128 (out3 m c) shapeCasts_S25x400x128_S10000x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v4 (Pipeline.mem_restRefs_of main_v4 (by decide) (by decide))).trans (tail_v4 m c),
      ((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c))⟩)
    (run_main m ρ)

end Cert.KernelIdeal.Hand

end
-- ==== Proof.Blocks.lean ====
/-
  The windows' blocks read back as entries of the argument arrays: the adjacency's row block at a point is rows
  [400·step, 400·step + 400) of the adjacency (through the row-major regrouping into 25 groups of 400 rows), the two
  bias rows are the bias vectors, and the resident operands are the argument arrays themselves.
-/
import proofs.«152332_g37426345017912_cont_8to1_b_1199_18_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The adjacency as the region finds it: the launched adjacency regrouped, row-major, into 25 groups of 400 rows. -/
theorem V_v0_eq (c : Dev nD) :
    (V m c main_v0 : S25x400x10000.Idx → Elt F .f32)
      = shapeCast S25x400x10000 (m ((c : Thread nD τ).loc main_arg1)) shapeCasts_S10000x10000_S25x400x10000 := by
  show StableHlo.after hostOps0 (fun b => m (c, b)) (Proc.devRef .tc main_v0) = _
  after_results
  rfl

/-- The first bias as the region finds it: the launched vector as a one-row matrix. -/
theorem V_v1_eq (c : Dev nD) :
    (V m c main_v1 : S1x128.Idx → Elt F .f32)
      = shapeCast S1x128 (m ((c : Thread nD τ).loc main_arg3)) shapeCasts_S128_S1x128 := by
  show StableHlo.after hostOps0 (fun b => m (c, b)) (Proc.devRef .tc main_v1) = _
  after_results
  rfl

/-- The second bias as the region finds it: the launched vector as a one-row matrix. -/
theorem V_v2_eq (c : Dev nD) :
    (V m c main_v2 : S1x128.Idx → Elt F .f32)
      = shapeCast S1x128 (m ((c : Thread nD τ).loc main_arg5)) shapeCasts_S128_S1x128 := by
  show StableHlo.after hostOps0 (fun b => m (c, b)) (Proc.devRef .tc main_v2) = _
  after_results
  rfl

/-- Entry (0, r, j) of the adjacency's block at point t is the adjacency at row 400·(t mod 25) + r, column j. -/
theorem blk0_at (c : Dev nD) (t : Fin cfg0.N) (r : Fin 400) (j : Fin 10000) (p : Fin 10000) (hp : p.val = 400 * (t.val % 25) + r.val) :
    (iblk m c 0 t : Vec F S1x400x10000 .f32) (ix3 (0 : Fin 1) r j) = m ((c : Thread nD τ).loc main_arg1) (ix2 p j) := by
  -- the block index at point t is (t mod 25, 0, 0)
  have hi : ∀ t : Fin cfg0.N, win0_0.index t (0 : Fin 3) = t.val % 25 ∧ win0_0.index t 1 = 0 ∧ win0_0.index t 2 = 0 :=
    (by decide +kernel : ∀ t : Fin grid0.N, _)
  unfold iblk
  rw [View.read_apply]
  show V m c main_v0 _ = _
  refine (congrFun (V_v0_eq m c) _).trans ?_
  -- (t mod 25, r, j) of [25, 400, 10000] and (p, j) of [10000, 10000] sit at the same row-major position
  refine shapeCast_apply _ _ _ (ix2 p j) ?_
  rw [Shape.rowMajor_val_two, Shape.rowMajor_val_three]
  show p.val * 10000 + j.val
    = ((win0_0.index t 0 * 1 + 1 * 0) * 400 + (win0_0.index t 1 * 400 + 1 * r.val)) * 10000
      + (win0_0.index t 2 * 10000 + 1 * j.val)
  rw [(hi t).1, (hi t).2.1, (hi t).2.2, hp]
  omega

/-- X is resident: its block at any point is the whole array. -/
theorem blk1_at (c : Dev nD) (t : Fin cfg0.N) (j : Fin 10000) (k : Fin 128) :
    (iblk m c 1 t : Vec F S10000x128 .f32) (ix2 j k) = m ((c : Thread nD τ).loc main_arg0) (ix2 j k) := by
  have hi : ∀ t : Fin cfg0.N, win0_1.index t (0 : Fin 2) = 0 ∧ win0_1.index t 1 = 0 :=
    (by decide +kernel : ∀ t : Fin grid0.N, _)
  unfold iblk
  rw [View.read_apply]
  show V m c main_arg0 _ = _
  refine (congrFun (V_main_arg0 m c) _).trans ?_
  congr 1
  funext a
  apply Fin.ext
  match a with
  | ⟨0, _⟩ => show win0_1.index t 0 * 10000 + 1 * j.val = j.val; rw [(hi t).1]; omega
  | ⟨1, _⟩ => show win0_1.index t 1 * 128 + 1 * k.val = k.val; rw [(hi t).2]; omega

/-- W1 likewise. -/
theorem blk2_at (c : Dev nD) (t : Fin cfg0.N) (a b : Fin 128) :
    (iblk m c 2 t : Vec F S128x128 .f32) (ix2 a b) = m ((c : Thread nD τ).loc main_arg2) (ix2 a b) := by
  have hi : ∀ t : Fin cfg0.N, win0_2.index t (0 : Fin 2) = 0 ∧ win0_2.index t 1 = 0 :=
    (by decide +kernel : ∀ t : Fin grid0.N, _)
  unfold iblk
  rw [View.read_apply]
  show V m c main_arg2 _ = _
  refine (congrFun (V_main_arg2 m c) _).trans ?_
  congr 1
  funext d
  apply Fin.ext
  match d with
  | ⟨0, _⟩ => show win0_2.index t 0 * 128 + 1 * a.val = a.val; rw [(hi t).1]; omega
  | ⟨1, _⟩ => show win0_2.index t 1 * 128 + 1 * b.val = b.val; rw [(hi t).2]; omega

/-- The first bias as a row. -/
theorem blk3_at (c : Dev nD) (t : Fin cfg0.N) (a : Fin 128) :
    (iblk m c 3 t : Vec F S1x128 .f32) (ix2 (0 : Fin 1) a) = m ((c : Thread nD τ).loc main_arg3) (ix1 a) := by
  have hi : ∀ t : Fin cfg0.N, win0_3.index t (0 : Fin 2) = 0 ∧ win0_3.index t 1 = 0 :=
    (by decide +kernel : ∀ t : Fin grid0.N, _)
  unfold iblk
  rw [View.read_apply]
  show V m c main_v1 _ = _
  refine (congrFun (V_v1_eq m c) _).trans ?_
  -- the block is the whole one-row matrix: its entry (0, a) is the matrix's entry (0, a)
  have he : (((cfg0.win 3).blk t).view.emb (ix2 (0 : Fin 1) a) : S1x128.Idx) = ix2 (0 : Fin 1) a := by
    funext d
    apply Fin.ext
    match d with
    | ⟨0, _⟩ => show win0_3.index t 0 * 1 + 1 * 0 = 0; rw [(hi t).1]
    | ⟨1, _⟩ => show win0_3.index t 1 * 128 + 1 * a.val = a.val; rw [(hi t).2]; omega
  exact (congrArg _ he).trans (shapeCast_a_1a_apply _ _ _ _)

/-- W2 is resident. -/
theorem blk4_at (c : Dev nD) (t : Fin cfg0.N) (a b : Fin 128) :
    (iblk m c 4 t : Vec F S128x128 .f32) (ix2 a b) = m ((c : Thread nD τ).loc main_arg4) (ix2 a b) := by
  have hi : ∀ t : Fin cfg0.N, win0_4.index t (0 : Fin 2) = 0 ∧ win0_4.index t 1 = 0 :=
    (by decide +kernel : ∀ t : Fin grid0.N, _)
  unfold iblk
  rw [View.read_apply]
  show V m c main_arg4 _ = _
  refine (congrFun (V_main_arg4 m c) _).trans ?_
  congr 1
  funext d
  apply Fin.ext
  match d with
  | ⟨0, _⟩ => show win0_4.index t 0 * 128 + 1 * a.val = a.val; rw [(hi t).1]; omega
  | ⟨1, _⟩ => show win0_4.index t 1 * 128 + 1 * b.val = b.val; rw [(hi t).2]; omega

/-- The second bias as a row. -/
theorem blk5_at (c : Dev nD) (t : Fin cfg0.N) (a : Fin 128) :
    (iblk m c 5 t : Vec F S1x128 .f32) (ix2 (0 : Fin 1) a) = m ((c : Thread nD τ).loc main_arg5) (ix1 a) := by
  have hi : ∀ t : Fin cfg0.N, win0_5.index t (0 : Fin 2) = 0 ∧ win0_5.index t 1 = 0 :=
    (by decide +kernel : ∀ t : Fin grid0.N, _)
  unfold iblk
  rw [View.read_apply]
  show V m c main_v2 _ = _
  refine (congrFun (V_v2_eq m c) _).trans ?_
  have he : (((cfg0.win 5).blk t).view.emb (ix2 (0 : Fin 1) a) : S1x128.Idx) = ix2 (0 : Fin 1) a := by
    funext d
    apply Fin.ext
    match d with
    | ⟨0, _⟩ => show win0_5.index t 0 * 1 + 1 * 0 = 0; rw [(hi t).1]
    | ⟨1, _⟩ => show win0_5.index t 1 * 128 + 1 * a.val = a.val; rw [(hi t).2]; omega
  exact (congrArg _ he).trans (shapeCast_a_1a_apply _ _ _ _)

end Cert.KernelIdeal.Hand

end
-- ==== Proof.Payloads.lean ====
/-
  The kernel body's arithmetic at the extended reals, index by index: the first scratch's payload is X · W1ᵀ, a
  phase-0 slab is relu(A_blk · XW + b1) · W2ᵀ, a phase-1 output block is relu(A_blk · G + b2). A change of float
  format is the identity there and a matrix product into a zero accumulator is a plain sum.
-/
import proofs.«152332_g37426345017912_cont_8to1_b_1199_18_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

/-! ### The product `dot_S10000x128_S128x128_S10000x128_1_1_0_0_n_n` at an index

The operands' indices at output index i and contraction index q, axis by axis: a non-contracting axis reads i, the
contracting axis reads q's one coordinate. -/

theorem mmXW_lhs_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem mmXW_lhs_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem mmXW_rhs_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q
theorem mmXW_rhs_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl

/-- X · Wᵀ into the zero accumulator: at (p, c) the sum over k of l (p, k) · r (c, k). -/
theorem mmXW_at (l : FVec Ideal S10000x128 .bf16) (r : FVec Ideal S128x128 .bf16) (p : Fin 10000) (c : Fin 128) :
    matmul dot_S10000x128_S128x128_S10000x128_1_1_0_0_n_n none l r (constant S10000x128 .f32 0x00000000#32) (ix2 p c)
      = ∑ k : Fin 128, l (ix2 p k) * r (ix2 c k) := by
  simp only [matmul]
  rw [Ideal.matmul_constant_zero_apply, ← Equiv.sum_comp (ValueIdx.contrEquiv1 dot_S10000x128_S128x128_S10000x128_1_1_0_0_n_n 128 rfl rfl).symm]
  refine Finset.sum_congr rfl fun k _ => ?_
  have hk := ValueIdx.contrEquiv1_symm_val dot_S10000x128_S128x128_S10000x128_1_1_0_0_n_n 128 rfl rfl k
  have el : dot_S10000x128_S128x128_S10000x128_1_1_0_0_n_n.lhsIdx (ix2 p c) ((ValueIdx.contrEquiv1 dot_S10000x128_S128x128_S10000x128_1_1_0_0_n_n 128 rfl rfl).symm k) = ix2 p k := funext fun a => Fin.ext (by
    match a with
    | ⟨0, _⟩ => exact mmXW_lhs_0 _ _
    | ⟨1, _⟩ => exact (mmXW_lhs_1 _ _).trans hk)
  have er : dot_S10000x128_S128x128_S10000x128_1_1_0_0_n_n.rhsIdx (ix2 p c) ((ValueIdx.contrEquiv1 dot_S10000x128_S128x128_S10000x128_1_1_0_0_n_n 128 rfl rfl).symm k) = ix2 c k := funext fun a => Fin.ext (by
    match a with
    | ⟨0, _⟩ => exact mmXW_rhs_0 _ _
    | ⟨1, _⟩ => exact (mmXW_rhs_1 _ _).trans hk)
  rw [el, er]

/-! ### The product `dot_S400x10000_S10000x128_S400x128_1_0_0_1_n_n` at an index

The operands' indices at output index i and contraction index q, axis by axis: a non-contracting axis reads i, the
contracting axis reads q's one coordinate. -/

theorem mmAG_lhs_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem mmAG_lhs_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem mmAG_rhs_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem mmAG_rhs_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- A · G into the zero accumulator: at (p, c) the sum over k of l (p, k) · r (k, c). -/
theorem mmAG_at (l : FVec Ideal S400x10000 .bf16) (r : FVec Ideal S10000x128 .bf16) (p : Fin 400) (c : Fin 128) :
    matmul dot_S400x10000_S10000x128_S400x128_1_0_0_1_n_n none l r (constant S400x128 .f32 0x00000000#32) (ix2 p c)
      = ∑ k : Fin 10000, l (ix2 p k) * r (ix2 k c) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p c) ((ValueIdx.contrEquiv1 dot_S400x10000_S10000x128_S400x128_1_0_0_1_n_n 10000 rfl rfl).symm k) = ix2 p k := funext fun a => Fin.ext (by
    match a with
    | ⟨0, _⟩ => exact mmAG_lhs_0 _ _
    | ⟨1, _⟩ => exact (mmAG_lhs_1 _ _).trans hk)
  have er : dot_S400x10000_S10000x128_S400x128_1_0_0_1_n_n.rhsIdx (ix2 p c) ((ValueIdx.contrEquiv1 dot_S400x10000_S10000x128_S400x128_1_0_0_1_n_n 10000 rfl rfl).symm k) = ix2 k c := funext fun a => Fin.ext (by
    match a with
    | ⟨0, _⟩ => exact (mmAG_rhs_0 _ _).trans hk
    | ⟨1, _⟩ => exact mmAG_rhs_1 _ _)
  rw [el, er]

/-! ### The product `dot_S400x128_S128x128_S400x128_1_1_0_0_n_n` at an index

The operands' indices at output index i and contraction index q, axis by axis: a non-contracting axis reads i, the
contracting axis reads q's one coordinate. -/

theorem mmHW_lhs_0 (i : S400x128.Idx) (q : dot_S400x128_S128x128_S400x128_1_1_0_0_n_n.contr.Idx) :
    (dot_S400x128_S128x128_S400x128_1_1_0_0_n_n.lhsIdx i q 0).val = (i 0).val := by
  unfold DotDims.lhsIdx
  rw [dif_neg (show ¬(0 : Fin S400x128.rank) ∈ dot_S400x128_S128x128_S400x128_1_1_0_0_n_n.lhsBatch by decide), dif_pos (show (0 : Fin S400x128.rank) ∈ dot_S400x128_S128x128_S400x128_1_1_0_0_n_n.lhsNonContracting by decide)]
  rfl
theorem mmHW_lhs_1 (i : S400x128.Idx) (q : dot_S400x128_S128x128_S400x128_1_1_0_0_n_n.contr.Idx) :
    (dot_S400x128_S128x128_S400x128_1_1_0_0_n_n.lhsIdx i q 1).val = (q ⟨0, by decide⟩).val :=
  dot_S400x128_S128x128_S400x128_1_1_0_0_n_n.lhsIdx_val_of_single rfl i q
theorem mmHW_rhs_1 (i : S400x128.Idx) (q : dot_S400x128_S128x128_S400x128_1_1_0_0_n_n.contr.Idx) :
    (dot_S400x128_S128x128_S400x128_1_1_0_0_n_n.rhsIdx i q 1).val = (q ⟨0, by decide⟩).val :=
  dot_S400x128_S128x128_S400x128_1_1_0_0_n_n.rhsIdx_val_of_single rfl i q
theorem mmHW_rhs_0 (i : S400x128.Idx) (q : dot_S400x128_S128x128_S400x128_1_1_0_0_n_n.contr.Idx) :
    (dot_S400x128_S128x128_S400x128_1_1_0_0_n_n.rhsIdx i q 0).val = (i 1).val := by
  unfold DotDims.rhsIdx
  rw [dif_neg (show ¬(0 : Fin S128x128.rank) ∈ dot_S400x128_S128x128_S400x128_1_1_0_0_n_n.rhsBatch by decide), dif_pos (show (0 : Fin S128x128.rank) ∈ dot_S400x128_S128x128_S400x128_1_1_0_0_n_n.rhsNonContracting by decide)]
  rfl

/-- H · Wᵀ into the zero accumulator: at (p, c) the sum over k of l (p, k) · r (c, k). -/
theorem mmHW_at (l : FVec Ideal S400x128 .bf16) (r : FVec Ideal S128x128 .bf16) (p : Fin 400) (c : Fin 128) :
    matmul dot_S400x128_S128x128_S400x128_1_1_0_0_n_n none l r (constant S400x128 .f32 0x00000000#32) (ix2 p c)
      = ∑ k : Fin 128, l (ix2 p k) * r (ix2 c k) := by
  simp only [matmul]
  rw [Ideal.matmul_constant_zero_apply, ← Equiv.sum_comp (ValueIdx.contrEquiv1 dot_S400x128_S128x128_S400x128_1_1_0_0_n_n 128 rfl rfl).symm]
  refine Finset.sum_congr rfl fun k _ => ?_
  have hk := ValueIdx.contrEquiv1_symm_val dot_S400x128_S128x128_S400x128_1_1_0_0_n_n 128 rfl rfl k
  have el : dot_S400x128_S128x128_S400x128_1_1_0_0_n_n.lhsIdx (ix2 p c) ((ValueIdx.contrEquiv1 dot_S400x128_S128x128_S400x128_1_1_0_0_n_n 128 rfl rfl).symm k) = ix2 p k := funext fun a => Fin.ext (by
    match a with
    | ⟨0, _⟩ => exact mmHW_lhs_0 _ _
    | ⟨1, _⟩ => exact (mmHW_lhs_1 _ _).trans hk)
  have er : dot_S400x128_S128x128_S400x128_1_1_0_0_n_n.rhsIdx (ix2 p c) ((ValueIdx.contrEquiv1 dot_S400x128_S128x128_S400x128_1_1_0_0_n_n 128 rfl rfl).symm k) = ix2 c k := funext fun a => Fin.ext (by
    match a with
    | ⟨0, _⟩ => exact mmHW_rhs_0 _ _
    | ⟨1, _⟩ => exact (mmHW_rhs_1 _ _).trans hk)
  rw [el, er]

/-- X · W1ᵀ at row j, column c. -/
theorem pay1_at (v14 : Vec Ideal S10000x128 .f32) (v16 : Vec Ideal S128x128 .f32) (j : Fin 10000) (c : Fin 128) :
    k0_pay1 (F := Ideal) v14 v16 (ix2 j c) = ∑ k : Fin 128, v14 (ix2 j k) * v16 (ix2 c k) := by
  unfold k0_pay1
  refine (congrFun (shapeCast_self _ _) _).trans ?_
  exact mmXW_at _ _ j c

/-- The adjacency block with its unit axis dropped, in the narrower format: at (r, j) the block at (0, r, j). -/
theorem pay2_at (v5 : Vec Ideal S1x400x10000 .f32) (r : Fin 400) (j : Fin 10000) :
    k0_pay2 (F := Ideal) v5 (ix2 r j) = v5 (ix3 (0 : Fin 1) r j) := by
  unfold k0_pay2
  exact shapeCast_1ab_ab_apply v5 shapeCasts_S1x400x10000_S400x10000 r j

/-- The hidden value both phases compute, relu(A_blk · G + b) at local row r, column c: the product's sum, the bias row
    broadcast over the rows added, the maximum with the zero splat. -/
theorem hid_at (v5 : Vec Ideal S1x400x10000 .f32) (v14 : Vec Ideal S10000x128 .bf16) (v16 : Vec Ideal S1x128 .f32)
    (r : Fin 400) (c : Fin 128) :
    maximumf (addf (matmul (φ₂ := .bf16) dot_S400x10000_S10000x128_S400x128_1_0_0_1_n_n none (k0_pay2 (F := Ideal) v5) (v14 : FVec Ideal S10000x128 .bf16) (constant S400x128 .f32 0x00000000#32))
        (broadcastTo S400x128 (shapeCast S1x128 (v16 : FVec Ideal S1x128 .f32) shapeCasts_S1x128_S1x128) broadcasts_S1x128_S400x128))
      (broadcast S400x128 (Scalar.ofBits (F := Ideal) .f32 0x00000000#32)) (ix2 r c)
      = max ((∑ j : Fin 10000, v5 (ix3 (0 : Fin 1) r j) * v14 (ix2 j c)) + v16 (ix2 (0 : Fin 1) c)) 0 := by
  rw [maximumf_apply, addf_apply, mmAG_at, shapeCast_self, broadcastTo_1b_ab_apply, broadcast_apply, Ideal.ofBits_def,
    Ideal.ofBits_zero_f32]
  exact congrArg (fun s => max (s + v16 (ix2 (0 : Fin 1) c)) 0) (Finset.sum_congr rfl fun k _ => by rw [pay2_at])

/-- A phase-0 slab at local row r, column o: relu(A_blk · XW + b1) · W2ᵀ. -/
theorem pay3_at (v5 : Vec Ideal S1x400x10000 .f32) (v14 : Vec Ideal S10000x128 .bf16) (v16 : Vec Ideal S1x128 .f32)
    (v23 : Vec Ideal S128x128 .f32) (r : Fin 400) (o : Fin 128) :
    k0_pay3 (F := Ideal) v5 v14 v16 v23 (ix2 r o)
      = ∑ c : Fin 128, max ((∑ j : Fin 10000, v5 (ix3 (0 : Fin 1) r j) * v14 (ix2 j c)) + v16 (ix2 (0 : Fin 1) c)) 0 * v23 (ix2 o c) := by
  unfold k0_pay3
  refine (congrFun (shapeCast_self _ _) _).trans ?_
  refine (mmHW_at _ _ r o).trans ?_
  refine Finset.sum_congr rfl fun c _ => ?_
  exact congrArg (· * v23 (ix2 o c)) (hid_at v5 v14 v16 r c)

/-- A phase-1 output block at local row r, column o: relu(A_blk · G + b2). -/
theorem pay4_at (v5 : Vec Ideal S1x400x10000 .f32) (v14 : Vec Ideal S10000x128 .bf16) (v16 : Vec Ideal S1x128 .f32)
    (r : Fin 400) (o : Fin 128) :
    k0_pay4 (F := Ideal) v5 v14 v16 (ix3 (0 : Fin 1) r o)
      = max ((∑ j : Fin 10000, v5 (ix3 (0 : Fin 1) r j) * v14 (ix2 j o)) + v16 (ix2 (0 : Fin 1) o)) 0 := by
  unfold k0_pay4
  refine (shapeCast_ab_1ab_apply _ shapeCasts_S400x128_S1x400x128 (0 : Fin 1) r o).trans ?_
  exact hid_at v5 v14 v16 r o

end Cert.KernelIdeal.Hand

end
-- ==== Proof.Spec.lean ====
/-
  The mathematics both programs compute, stated once over finite index types on the extended reals: a two-layer
  graph convolution  out = relu(A · relu(A · X · W1ᵀ + b1) · W2ᵀ + b2).  One program forms X · W1ᵀ first and then
  multiplies by A; the other forms A · X first and then multiplies by W1ᵀ (and likewise in the second layer). With
  finite entries every sum is a sum of reals, where the two bracketings of a triple product agree.
-/
import Mathlib.Data.EReal.Basic
import Mathlib.Algebra.BigOperators.Ring.Finset
import Mathlib.Algebra.BigOperators.Group.Finset.Basic
import Mathlib.Algebra.BigOperators.Group.Finset.Sigma

noncomputable section

namespace Cert.Gcn

open Finset

variable {N D H O : ℕ}

/-- An extended real that is a real number. -/
def IsReal (v : EReal) : Prop := ∃ r : ℝ, v = (r : EReal)

/-! ## The bracketing that applies the weights first -/

/-- X · W1ᵀ. -/
def xw (x : Fin N → Fin D → EReal) (w1 : Fin H → Fin D → EReal) (j : Fin N) (c : Fin H) : EReal :=
  ∑ k : Fin D, x j k * w1 c k

/-- relu(A · (X · W1ᵀ) + b1). -/
def hidK (a : Fin N → Fin N → EReal) (x : Fin N → Fin D → EReal) (w1 : Fin H → Fin D → EReal) (b1 : Fin H → EReal)
    (i : Fin N) (c : Fin H) : EReal :=
  max ((∑ j : Fin N, a i j * xw x w1 j c) + b1 c) 0

/-- hidden · W2ᵀ. -/
def gK (a : Fin N → Fin N → EReal) (x : Fin N → Fin D → EReal) (w1 : Fin H → Fin D → EReal) (b1 : Fin H → EReal)
    (w2 : Fin O → Fin H → EReal) (i : Fin N) (o : Fin O) : EReal :=
  ∑ c : Fin H, hidK a x w1 b1 i c * w2 o c

/-- relu(A · (hidden · W2ᵀ) + b2). -/
def outK (a : Fin N → Fin N → EReal) (x : Fin N → Fin D → EReal) (w1 : Fin H → Fin D → EReal) (b1 : Fin H → EReal)
    (w2 : Fin O → Fin H → EReal) (b2 : Fin O → EReal) (i : Fin N) (o : Fin O) : EReal :=
  max ((∑ j : Fin N, a i j * gK a x w1 b1 w2 j o) + b2 o) 0

/-! ## The bracketing that aggregates first -/

/-- A · X. -/
def ax (a : Fin N → Fin N → EReal) (x : Fin N → Fin D → EReal) (i : Fin N) (k : Fin D) : EReal :=
  ∑ j : Fin N, a i j * x j k

/-- relu((A · X) · W1ᵀ + b1). -/
def hidR (a : Fin N → Fin N → EReal) (x : Fin N → Fin D → EReal) (w1 : Fin H → Fin D → EReal) (b1 : Fin H → EReal)
    (i : Fin N) (c : Fin H) : EReal :=
  max ((∑ k : Fin D, ax a x i k * w1 c k) + b1 c) 0

/-- A · hidden. -/
def ahR (a : Fin N → Fin N → EReal) (x : Fin N → Fin D → EReal) (w1 : Fin H → Fin D → EReal) (b1 : Fin H → EReal)
    (i : Fin N) (c : Fin H) : EReal :=
  ∑ j : Fin N, a i j * hidR a x w1 b1 j c

/-- relu((A · hidden) · W2ᵀ + b2). -/
def outR (a : Fin N → Fin N → EReal) (x : Fin N → Fin D → EReal) (w1 : Fin H → Fin D → EReal) (b1 : Fin H → EReal)
    (w2 : Fin O → Fin H → EReal) (b2 : Fin O → EReal) (i : Fin N) (o : Fin O) : EReal :=
  max ((∑ c : Fin H, ahR a x w1 b1 i c * w2 o c) + b2 o) 0

/-! ## Finite entries: the sums are sums of reals -/

/-- The coercion from the reals commutes with finite sums. -/
theorem coe_sum_real {ι : Type*} (s : Finset ι) (f : ι → ℝ) :
    ((∑ i ∈ s, f i : ℝ) : EReal) = ∑ i ∈ s, (f i : EReal) := by
  classical
  induction s using Finset.induction_on with
  | empty => simp
  | insert b s hb ih => rw [Finset.sum_insert hb, Finset.sum_insert hb, EReal.coe_add, ih]

/-- Over the reals the two bracketings of a triple product agree. -/
theorem assoc_real {n p : ℕ} (a : Fin n → ℝ) (m : Fin n → Fin p → ℝ) (w : Fin p → ℝ) :
    ∑ j, a j * ∑ k, m j k * w k = ∑ k, (∑ j, a j * m j k) * w k := by
  simp only [Finset.mul_sum, Finset.sum_mul]
  rw [Finset.sum_comm]
  simp only [mul_assoc]

/-- With finite entries the two bracketings of a triple product agree on the extended reals. -/
theorem triple_assoc {n p : ℕ} (a : Fin n → EReal) (m : Fin n → Fin p → EReal) (w : Fin p → EReal)
    (ha : ∀ j, IsReal (a j)) (hm : ∀ j k, IsReal (m j k)) (hw : ∀ k, IsReal (w k)) :
    ∑ j, a j * ∑ k, m j k * w k = ∑ k, (∑ j, a j * m j k) * w k := by
  choose a' ha' using ha
  choose m' hm' using hm
  choose w' hw' using hw
  simp only [ha', hm', hw', ← EReal.coe_mul, ← coe_sum_real]
  rw [assoc_real]

/-- A finite sum of products of finite entries is finite. -/
theorem isReal_sum_mul {n : ℕ} (u v : Fin n → EReal) (hu : ∀ j, IsReal (u j)) (hv : ∀ j, IsReal (v j)) :
    IsReal (∑ j, u j * v j) := by
  choose u' hu' using hu
  choose v' hv' using hv
  refine ⟨∑ j, u' j * v' j, ?_⟩
  simp only [hu', hv', ← EReal.coe_mul, ← coe_sum_real]

/-- relu of a finite value plus a finite bias is finite. -/
theorem isReal_relu_add {s b : EReal} (hs : IsReal s) (hb : IsReal b) : IsReal (max (s + b) 0) := by
  obtain ⟨s', rfl⟩ := hs
  obtain ⟨b', rfl⟩ := hb
  refine ⟨max (s' + b') 0, ?_⟩
  rw [← EReal.coe_add, ← EReal.coe_zero]
  rcases le_total (s' + b') 0 with h | h
  · rw [max_eq_right h, max_eq_right (EReal.coe_le_coe_iff.mpr h)]
  · rw [max_eq_left h, max_eq_left (EReal.coe_le_coe_iff.mpr h)]

/-! ## The law -/

/-- With finite entries the two bracketings give the same result (b2 may be anything). -/
theorem outK_eq_outR (a : Fin N → Fin N → EReal) (x : Fin N → Fin D → EReal) (w1 : Fin H → Fin D → EReal) (b1 : Fin H → EReal)
    (w2 : Fin O → Fin H → EReal) (b2 : Fin O → EReal)
    (ha : ∀ i j, IsReal (a i j)) (hx : ∀ j k, IsReal (x j k)) (hw1 : ∀ c k, IsReal (w1 c k)) (hb1 : ∀ c, IsReal (b1 c))
    (hw2 : ∀ o c, IsReal (w2 o c)) (i : Fin N) (o : Fin O) :
    outK a x w1 b1 w2 b2 i o = outR a x w1 b1 w2 b2 i o := by
  have hxw : ∀ j c, IsReal (xw x w1 j c) := fun j c =>
    isReal_sum_mul (fun k => x j k) (fun k => w1 c k) (fun k => hx j k) (fun k => hw1 c k)
  -- first layer: the two hidden activations agree entrywise
  have hhid : ∀ j c, hidK a x w1 b1 j c = hidR a x w1 b1 j c := by
    intro j c
    unfold hidK hidR
    have h := triple_assoc (fun l => a j l) (fun l k => x l k) (fun k => w1 c k)
      (fun l => ha j l) (fun l k => hx l k) (fun k => hw1 c k)
    simp only [xw, ax] at h ⊢
    rw [h]
  -- and they are finite
  have hhidK : ∀ j c, IsReal (hidK a x w1 b1 j c) := fun j c =>
    isReal_relu_add (isReal_sum_mul (fun l => a j l) (fun l => xw x w1 l c) (fun l => ha j l) (fun l => hxw l c))
      (hb1 c)
  -- second layer
  unfold outK outR
  have h := triple_assoc (fun l => a i l) (fun l c => hidK a x w1 b1 l c) (fun c => w2 o c)
    (fun l => ha i l) (fun l c => hhidK l c) (fun c => hw2 o c)
  simp only [gK, ahR] at h ⊢
  simp only [← hhid]
  rw [h]

end Cert.Gcn

end
-- ==== Proof.KernelAt.lean ====
/-
  The kernel's result entry by entry, over the extended reals: row p = 400·g + r of the result is entry r of the block
  point 25 + g stored, relu(A_p · G + b2); row j of G is entry j mod 400 of the slab point j / 400 stored,
  relu(A_j · XW + b1) · W2ᵀ; and XW is X · W1ᵀ. So the result is the weights-first bracketing of the argument arrays.
-/
import proofs.«152332_g37426345017912_cont_8to1_b_1199_18_alg».proof.Proof.KernelValue
import proofs.«152332_g37426345017912_cont_8to1_b_1199_18_alg».proof.Proof.Blocks
import proofs.«152332_g37426345017912_cont_8to1_b_1199_18_alg».proof.Proof.Payloads
import proofs.«152332_g37426345017912_cont_8to1_b_1199_18_alg».proof.Proof.Spec
import Idealize.ShloMosaic.Lib.Pipeline.FrameBody
import Idealize.ShloMosaic.Lib.Pipeline.FrameSuffix
import Idealize.ShloMosaic.Lib.WritesUnit
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## The argument arrays as matrices -/

abbrev matA (c : Dev nD) : Fin 10000 → Fin 10000 → EReal := fun i j => m ((c : Thread nD τ).loc main_arg1) (ix2 i j)
abbrev matX (c : Dev nD) : Fin 10000 → Fin 128 → EReal := fun j k => m ((c : Thread nD τ).loc main_arg0) (ix2 j k)
abbrev matW1 (c : Dev nD) : Fin 128 → Fin 128 → EReal := fun a k => m ((c : Thread nD τ).loc main_arg2) (ix2 a k)
abbrev vecB1 (c : Dev nD) : Fin 128 → EReal := fun a => m ((c : Thread nD τ).loc main_arg3) (ix1 a)
abbrev matW2 (c : Dev nD) : Fin 128 → Fin 128 → EReal := fun o a => m ((c : Thread nD τ).loc main_arg4) (ix2 o a)
abbrev vecB2 (c : Dev nD) : Fin 128 → EReal := fun o => m ((c : Thread nD τ).loc main_arg5) (ix1 o)

/-- The first scratch is X · W1ᵀ. -/
theorem xwv_at (c : Dev nD) (j : Fin 10000) (a : Fin 128) :
    xwv (F := Ideal) m c (ix2 j a) = Cert.Gcn.xw (matX m c) (matW1 m c) j a := by
  unfold xwv Cert.Gcn.xw
  rw [pay1_at]
  exact Finset.sum_congr rfl fun k _ => by rw [blk1_at, blk2_at]

/-- Row j of the second scratch, once phase 0 is over, is row j of relu(A · XW + b1) · W2ᵀ. -/
theorem gfull_at (c : Dev nD) (j : Fin 10000) (o : Fin 128) :
    gfull (F := Ideal) m c (ix2 j o) = Cert.Gcn.gK (matA m c) (matX m c) (matW1 m c) (vecB1 m c) (matW2 m c) j o := by
  have hix : slabIx (ix2 j o) = ix2 (⟨j.val % 400, Nat.mod_lt _ (by decide)⟩ : Fin 400) o := rfl
  have hp : j.val = 400 * ((slabPt (ix2 j o)).val % 25) + (⟨j.val % 400, Nat.mod_lt _ (by decide)⟩ : Fin 400).val := by
    show j.val = 400 * ((j.val / 400) % 25) + j.val % 400
    have := j.isLt; omega
  unfold gfull slab
  rw [hix, pay3_at]
  unfold Cert.Gcn.gK Cert.Gcn.hidK
  refine Finset.sum_congr rfl fun a _ => ?_
  exact congrArg₂ (fun u v : EReal => u * v)
    (congrArg (fun u : EReal => max u 0)
      (congrArg₂ (fun u v : EReal => u + v)
        (Finset.sum_congr rfl fun j' _ => congrArg₂ (fun u v : EReal => u * v) (blk0_at m c (slabPt (ix2 j o)) _ j' j hp) (xwv_at m c j' a))
        (blk3_at m c _ a)))
    (blk4_at m c _ o a)

/-- The program's result at row p, column q is the weights-first bracketing there. -/
theorem kernel_at (c : Dev nD) (p : Fin 10000) (q : Fin 128) :
    shapeCast S10000x128 (out3 (F := Ideal) m c) shapeCasts_S25x400x128_S10000x128 (ix2 p q)
      = Cert.Gcn.outK (matA m c) (matX m c) (matW1 m c) (vecB1 m c) (matW2 m c) (vecB2 m c) p q := by
  have hk : (S25x400x128.rowMajor (ix3 (⟨p.val / 400, by have := p.isLt; omega⟩ : Fin 25) (⟨p.val % 400, Nat.mod_lt _ (by decide)⟩ : Fin 400) q)).val
      = (S10000x128.rowMajor (ix2 p q)).val := by
    rw [Shape.rowMajor_val_three, Shape.rowMajor_val_two]
    show ((p.val / 400) * 400 + p.val % 400) * 128 + q.val = p.val * 128 + q.val
    have := p.isLt; omega
  rw [shapeCast_apply (out3 (F := Ideal) m c) shapeCasts_S25x400x128_S10000x128 (ix2 p q) _ hk]
  have hp : p.val = 400 * ((ptOf (ix3 (⟨p.val / 400, by have := p.isLt; omega⟩ : Fin 25) (⟨p.val % 400, Nat.mod_lt _ (by decide)⟩ : Fin 400) q)).val % 25)
      + (⟨p.val % 400, Nat.mod_lt _ (by decide)⟩ : Fin 400).val := by
    show p.val = 400 * ((25 + p.val / 400) % 25) + p.val % 400
    have := p.isLt; omega
  unfold out3 outblk
  show k0_pay4 (F := Ideal) _ _ _ (ix3 (0 : Fin 1) (⟨p.val % 400, Nat.mod_lt _ (by decide)⟩ : Fin 400) q) = _
  rw [pay4_at]
  unfold Cert.Gcn.outK
  exact congrArg (fun u : EReal => max u 0)
    (congrArg₂ (fun u v : EReal => u + v)
      (Finset.sum_congr rfl fun j _ => congrArg₂ (fun u v : EReal => u * v) (blk0_at m c _ _ j p hp) (gfull_at m c j q))
      (blk5_at m c _ q))

end Cert.KernelIdeal.Hand

end
-- ==== Proof.RefValue.lean ====
/-
  What the reference computes, index by index: reading its eighteen host operations one after the other at an index
  gives relu((A · relu((A · X) · W1ᵀ + b1)) · W2ᵀ + b2), the bracketing that aggregates first.
-/
import proofs.«152332_g37426345017912_cont_8to1_b_1199_18_alg».proof.Proof.Gen.ReferenceIdeal.Read
import proofs.«152332_g37426345017912_cont_8to1_b_1199_18_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

section Stages

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-! ### The index functions of the contractions and layout operations, on indices given by coordinates -/

private theorem lidx0 (i : Fin 10000) (c : Fin 128) (k : Fin 10000) : lidx_main_v0 (ix2 i c) k = ix2 i k :=
  funext fun a => Fin.ext (by match a with | ⟨0, _⟩ => rfl | ⟨1, _⟩ => rfl)
private theorem ridx0 (i : Fin 10000) (c : Fin 128) (k : Fin 10000) : ridx_main_v0 (ix2 i c) k = ix2 k c :=
  funext fun a => Fin.ext (by match a with | ⟨0, _⟩ => rfl | ⟨1, _⟩ => rfl)
private theorem idx1 (k c : Fin 128) : idx_main_v1 (ix2 k c) = ix2 c k :=
  funext fun a => Fin.ext (by match a with | ⟨0, _⟩ => rfl | ⟨1, _⟩ => rfl)
private theorem lidx2 (i : Fin 10000) (c : Fin 128) (k : Fin 128) : lidx_main_v2 (ix2 i c) k = ix2 i k :=
  funext fun a => Fin.ext (by match a with | ⟨0, _⟩ => rfl | ⟨1, _⟩ => rfl)
private theorem ridx2 (i : Fin 10000) (c : Fin 128) (k : Fin 128) : ridx_main_v2 (ix2 i c) k = ix2 k c :=
  funext fun a => Fin.ext (by match a with | ⟨0, _⟩ => rfl | ⟨1, _⟩ => rfl)
private theorem idx34 (i : Fin 10000) (c : Fin 128) : idx_main_v3 (idx_main_v4 (ix2 i c)) = ix1 c :=
  funext fun a => Fin.ext (by match a with | ⟨0, _⟩ => rfl)
private theorem lidx8 (i : Fin 10000) (c : Fin 128) (k : Fin 10000) : lidx_main_v8 (ix2 i c) k = ix2 i k :=
  funext fun a => Fin.ext (by match a with | ⟨0, _⟩ => rfl | ⟨1, _⟩ => rfl)
private theorem ridx8 (i : Fin 10000) (c : Fin 128) (k : Fin 10000) : ridx_main_v8 (ix2 i c) k = ix2 k c :=
  funext fun a => Fin.ext (by match a with | ⟨0, _⟩ => rfl | ⟨1, _⟩ => rfl)
private theorem idx9 (k c : Fin 128) : idx_main_v9 (ix2 k c) = ix2 c k :=
  funext fun a => Fin.ext (by match a with | ⟨0, _⟩ => rfl | ⟨1, _⟩ => rfl)
private theorem lidx10 (i : Fin 10000) (c : Fin 128) (k : Fin 128) : lidx_main_v10 (ix2 i c) k = ix2 i k :=
  funext fun a => Fin.ext (by match a with | ⟨0, _⟩ => rfl | ⟨1, _⟩ => rfl)
private theorem ridx10 (i : Fin 10000) (c : Fin 128) (k : Fin 128) : ridx_main_v10 (ix2 i c) k = ix2 k c :=
  funext fun a => Fin.ext (by match a with | ⟨0, _⟩ => rfl | ⟨1, _⟩ => rfl)
private theorem idx1112 (i : Fin 10000) (c : Fin 128) : idx_main_v11 (idx_main_v12 (ix2 i c)) = ix1 c :=
  funext fun a => Fin.ext (by match a with | ⟨0, _⟩ => rfl)

/-! ### The stages, from the inside out -/

/-- A · X. -/
theorem v0_at (i : Fin 10000) (k : Fin 128) :
    val_main_v0 (F := Ideal) x0 x1 (ix2 i k)
      = Cert.Gcn.ax (N := 10000) (D := 128) (fun i j => x1 (ix2 i j)) (fun j k => x0 (ix2 j k)) i k := by
  rw [val_main_v0_apply]
  unfold Cert.Gcn.ax
  refine Finset.sum_congr rfl fun j _ => ?_
  rw [lidx0, ridx0]

/-- W1ᵀ. -/
theorem v1_at (k c : Fin 128) : val_main_v1 (F := Ideal) x2 (ix2 k c) = x2 (ix2 c k) := by
  rw [val_main_v1_apply, idx1]

/-- The first bias, broadcast along the rows. -/
theorem v4_at (i : Fin 10000) (c : Fin 128) : val_main_v4 (F := Ideal) x3 (ix2 i c) = x3 (ix1 c) := by
  rw [val_main_v4_apply, val_main_v3_apply, idx34]

/-- The zero array. -/
theorem v6_at (j : S10000x128.Idx) : val_main_v6 (F := Ideal) j = (0 : EReal) := by
  rw [val_main_v6_apply, val_main_cst_apply, Ideal.ofBits_def, Ideal.ofBits_zero_f32]

/-- relu((A · X) · W1ᵀ + b1). -/
theorem v7_at (i : Fin 10000) (c : Fin 128) :
    val_main_v7 (F := Ideal) x0 x1 x2 x3 (ix2 i c)
      = Cert.Gcn.hidR (N := 10000) (D := 128) (H := 128) (fun i j => x1 (ix2 i j)) (fun j k => x0 (ix2 j k))
          (fun c k => x2 (ix2 c k)) (fun c => x3 (ix1 c)) i c := by
  rw [val_main_v7_apply, val_main_v5_apply, val_main_v2_apply, v4_at, v6_at, Ideal.maximumf_def, Ideal.addf_def]
  unfold Cert.Gcn.hidR
  congr 2
  refine Finset.sum_congr rfl fun k _ => ?_
  rw [lidx2, ridx2, v0_at, v1_at]

/-- A · hidden. -/
theorem v8_at (i : Fin 10000) (c : Fin 128) :
    val_main_v8 (F := Ideal) x0 x1 x2 x3 (ix2 i c)
      = Cert.Gcn.ahR (N := 10000) (D := 128) (H := 128) (fun i j => x1 (ix2 i j)) (fun j k => x0 (ix2 j k))
          (fun c k => x2 (ix2 c k)) (fun c => x3 (ix1 c)) i c := by
  rw [val_main_v8_apply]
  unfold Cert.Gcn.ahR
  refine Finset.sum_congr rfl fun j _ => ?_
  rw [lidx8, ridx8, v7_at]

/-- W2ᵀ. -/
theorem v9_at (k c : Fin 128) : val_main_v9 (F := Ideal) x4 (ix2 k c) = x4 (ix2 c k) := by
  rw [val_main_v9_apply, idx9]

/-- The second bias, broadcast along the rows. -/
theorem v12_at (i : Fin 10000) (c : Fin 128) : val_main_v12 (F := Ideal) x5 (ix2 i c) = x5 (ix1 c) := by
  rw [val_main_v12_apply, val_main_v11_apply, idx1112]

/-- The second zero array. -/
theorem v14_at (j : S10000x128.Idx) : val_main_v14 (F := Ideal) j = (0 : EReal) := by
  rw [val_main_v14_apply, val_main_cst_0_apply, Ideal.ofBits_def, Ideal.ofBits_zero_f32]

end Stages

/-- The reference's result at row p, column q, as the aggregate-first bracketing of the argument arrays read as matrices. -/
theorem ref_at (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (p : Fin 10000) (q : Fin 128) :
    val_main_v15 (F := Ideal) x0 x1 x2 x3 x4 x5 (ix2 p q)
      = Cert.Gcn.outR (N := 10000) (D := 128) (H := 128) (O := 128)
          (fun i j => x1 (ix2 i j)) (fun j k => x0 (ix2 j k)) (fun c k => x2 (ix2 c k)) (fun c => x3 (ix1 c))
          (fun o c => x4 (ix2 o c)) (fun o => x5 (ix1 o)) p q := by
  rw [val_main_v15_apply, val_main_v13_apply, val_main_v10_apply, v12_at, v14_at, Ideal.maximumf_def, Ideal.addf_def]
  unfold Cert.Gcn.outR
  congr 2
  refine Finset.sum_congr rfl fun c _ => ?_
  rw [lidx10, ridx10, v8_at, v9_at]

end Cert.ReferenceIdeal.RefValue

end
-- ==== Proof.Finite.lean ====
/-
  The precondition read: every entry of each of the six argument arrays is a real number.
-/
import proofs.«152332_g37426345017912_cont_8to1_b_1199_18_alg».proof.Defs
import proofs.«152332_g37426345017912_cont_8to1_b_1199_18_alg».proof.Proof.Gen.Pre_finite_inputs
import proofs.«152332_g37426345017912_cont_8to1_b_1199_18_alg».proof.Proof.Spec
import Idealize.ShloMosaic.Lib.ReduceAll
import Idealize.ShloMosaic.Lib.ValueIdx
import Idealize.ShloMosaic.PureOps.Ideal.Laws

noncomputable section

namespace Cert.Finite

open Idealize.ShloMosaic Idealize.ShloMosaic.TcCoe Idealize.SL.Sem

/-- The bit pattern of the bound denotes +∞ on the extended reals. -/
theorem bound_eq_top : Ideal.ofBits .f32 0x7F800000#32 = (⊤ : EReal) := by
  simp [Ideal.ofBits, Ideal.ieee]

/-- An extended real whose absolute value is below +∞ is a real number: both infinities have absolute value +∞. -/
theorem isReal_of_abs_lt_top (v : EReal) (hv : max v (-v) < ⊤) : Cert.Gcn.IsReal v := by
  induction v using EReal.rec with
  | bot => simp at hv
  | coe r => exact ⟨r, rfl⟩
  | top => simp at hv

/-- The rank-zero shape has exactly one index. -/
local instance subsingleton_scalar_idx : Subsingleton Cert.Pre_finite_inputs.S_.Idx :=
  ⟨fun a b => funext fun d => d.elim0⟩

open Cert.Pre_finite_inputs in
/-- If the conjunction over a whole array of the tests |x| < +∞ comes out 1, every entry of the array is a real number. -/
theorem all_real {S : Shape} {axes : List (Fin S.rank)}
    (hb : S_.BroadcastsInDim S (![] : Fin 0 → Fin S.rank)) (hr : S.ReducesTo axes S_) (hu : 0 < S_.numel)
    (x : FVec Ideal S .f32) (init : IVec S_ 1) (j : S_.Idx)
    (e : Host.reduce IntOp.andi
          (cmpf .olt (Host.absf x) (broadcastInDim S ![] hb (constant (F := Ideal) S_ .f32 0x7F800000#32))) init hr hu j = 1#1)
    (y : S.Idx) : Cert.Gcn.IsReal (x y) := by
  have h1 := Host.reduce_andi_all _ init hr hu j e y
  apply isReal_of_abs_lt_top
  have h2 : Ideal.cmp .olt (max (x y) (-(x y))) (Ideal.ofBits .f32 0x7F800000#32) = 1#1 := h1
  rw [bound_eq_top] at h2
  have h3 : BitVec.ofBool (decide (max (x y) (-(x y)) < ⊤)) = 1#1 := h2
  by_contra hn
  rw [decide_eq_false hn] at h3
  exact absurd h3 (by decide)

/-- Under the precondition every entry of every argument array of the idealized kernel is a real number. -/
theorem of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ y, Cert.Gcn.IsReal (m ((c.tc : Thread Cert.KernelIdeal.nD Cert.KernelIdeal.τ).loc Cert.KernelIdeal.main_arg0) y))
    ∧ (∀ y, Cert.Gcn.IsReal (m ((c.tc : Thread Cert.KernelIdeal.nD Cert.KernelIdeal.τ).loc Cert.KernelIdeal.main_arg1) y))
    ∧ (∀ y, Cert.Gcn.IsReal (m ((c.tc : Thread Cert.KernelIdeal.nD Cert.KernelIdeal.τ).loc Cert.KernelIdeal.main_arg2) y))
    ∧ (∀ y, Cert.Gcn.IsReal (m ((c.tc : Thread Cert.KernelIdeal.nD Cert.KernelIdeal.τ).loc Cert.KernelIdeal.main_arg3) y))
    ∧ (∀ y, Cert.Gcn.IsReal (m ((c.tc : Thread Cert.KernelIdeal.nD Cert.KernelIdeal.τ).loc Cert.KernelIdeal.main_arg4) y))
    ∧ (∀ y, Cert.Gcn.IsReal (m ((c.tc : Thread Cert.KernelIdeal.nD Cert.KernelIdeal.τ).loc Cert.KernelIdeal.main_arg5) y)) := by
  have h0 := congrFun (h c) ValueIdx.ix0
  dsimp only [Cert.Pre_finite_inputs.fn, Cert.Pre_finite_inputs.fn_part1, Idealize.ShloMosaic.andi] at h0
  simp only [IntOp.andi_eq_one] at h0
  obtain ⟨⟨⟨⟨⟨e0, e1⟩, e2⟩, e3⟩, e4⟩, e5⟩ := h0
  exact ⟨all_real _ _ _ _ _ _ e0, all_real _ _ _ _ _ _ e1, all_real _ _ _ _ _ _ e2, all_real _ _ _ _ _ _ e3,
    all_real _ _ _ _ _ _ e4, all_real _ _ _ _ _ _ e5⟩

end Cert.Finite

end
-- ==== Proof.lean ====
/-
  A two-layer graph convolution over a dense adjacency, out = relu(A · relu(A · X · W1ᵀ + b1) · W2ᵀ + b2), computed by one
  kernel on a [2, 25] grid against a plain reference. The kernel multiplies by the weights first (X · W1ᵀ once, then per
  block of 400 rows A_blk · XW, and in the second pass A_blk · G with G = hidden · W2ᵀ kept in scratch); the reference
  aggregates first ((A · X) · W1ᵀ, (A · hidden) · W2ᵀ). Over the extended reals a change of float format is the identity
  and the matrix products are plain sums, so both are triple products in two bracketings, equal when every entry is a
  real number, which the precondition says of all six arguments (the last bias may be anything: it is added after).
  The three frames: both kernel programs run to the end with their arguments unchanged (the body run once per control
  case, the scratch contents carried between grid points by an invariant), and the reference is a straight line of
  host operations. The idealization rewrote nothing.
-/
import proofs.«152332_g37426345017912_cont_8to1_b_1199_18_alg».proof.Defs
import proofs.«152332_g37426345017912_cont_8to1_b_1199_18_alg».proof.Proof.Gen.Kernel
import proofs.«152332_g37426345017912_cont_8to1_b_1199_18_alg».proof.Proof.Gen.KernelIdeal
import proofs.«152332_g37426345017912_cont_8to1_b_1199_18_alg».proof.Proof.Gen.ReferenceIdeal
import proofs.«152332_g37426345017912_cont_8to1_b_1199_18_alg».proof.Proof.Gen.ReferenceIdeal.Run
import proofs.«152332_g37426345017912_cont_8to1_b_1199_18_alg».proof.Proof.Gen.ReferenceIdeal.Read
import proofs.«152332_g37426345017912_cont_8to1_b_1199_18_alg».proof.Proof.Gen.Pre_finite_inputs
import proofs.«152332_g37426345017912_cont_8to1_b_1199_18_alg».proof.Proof.BitsSide.Body
import proofs.«152332_g37426345017912_cont_8to1_b_1199_18_alg».proof.Proof.IdealSide.Body
import proofs.«152332_g37426345017912_cont_8to1_b_1199_18_alg».proof.Proof.KernelValue
import proofs.«152332_g37426345017912_cont_8to1_b_1199_18_alg».proof.Proof.KernelAt
import proofs.«152332_g37426345017912_cont_8to1_b_1199_18_alg».proof.Proof.RefValue
import proofs.«152332_g37426345017912_cont_8to1_b_1199_18_alg».proof.Proof.Finite
import proofs.«152332_g37426345017912_cont_8to1_b_1199_18_alg».proof.Proof.Spec
import Idealize.ShloMosaic.Lib.ValueIdx
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result: entry (p, q) of the kernel's is the weights-first bracketing of the
    arguments, entry (p, q) of the reference's the aggregate-first one, and with finite entries the two agree. -/
theorem algebraic : Cert.algebraic_KernelIdeal_ReferenceIdeal := by
  intro m ρ m' ρ' hpre hagree
  refine ⟨fun c => shapeCast Cert.KernelIdeal.S10000x128 (Cert.KernelIdeal.Hand.out3 (F := Ideal) m c)
    Cert.KernelIdeal.Facts₀.shapeCasts_S25x400x128_S10000x128, Cert.KernelIdeal.Hand.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2.1, (hagree c).2.2.2.1,
    (hagree c).2.2.2.2.1, (hagree c).2.2.2.2.2]
  funext y
  obtain ⟨p, q, rfl⟩ : ∃ (p : Fin 10000) (q : Fin 128), y = ix2 p q := ⟨y 0, y 1, eq_ix2 y⟩
  obtain ⟨h0, h1, h2, h3, h4, -⟩ := Cert.Finite.of_pre m hpre c
  rw [Cert.ReferenceIdeal.RefValue.ref_at]
  refine Eq.trans ?_ (Cert.KernelIdeal.Hand.kernel_at m c p q).symm
  exact (Cert.Gcn.outK_eq_outR _ _ _ _ _ _ (fun i j => h1 _) (fun j k => h0 _) (fun a k => h2 _) (fun a => h3 _)
    (fun o a => h4 _) p q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
